-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S4096x16 : S_.BroadcastsInDim S4096x16 (![] : Fin 0 → Fin S4096x16.rank)
  reducesTo_S4096x16_S_d0_1 : S4096x16.ReducesTo [0, 1] S_
  bcast_S_S16x4096 : S_.BroadcastsInDim S16x4096 (![] : Fin 0 → Fin S16x4096.rank)
  reducesTo_S16x4096_S_d0_1 : S16x4096.ReducesTo [0, 1] S_

variable [Facts]

def fn_part1 {F : FTy → Type} [FloatOps F] (main_arg4 : FVec F S16x4096 .f32) (main_v13 : IVec S_ 1) (main_v16 : IVec S4096x16 1) : IVec S_ 1 :=
  let main_c_5 : IVec S_ 1 := constantI S_ 1 1#1
  let main_v17 : IVec S_ 1 := (fun x v => Host.reduce IntOp.andi x v reducesTo_S4096x16_S_d0_1 h_S_) main_v16 main_c_5
  let main_v18 : IVec S_ 1 := andi main_v13 main_v17
  let main_v19 : FVec F S16x4096 .f32 := Host.absf main_arg4
  let main_cst_6 : FVec F S_ .f32 := constant S_ .f32 0x7F800000#32
  let main_v20 : FVec F S16x4096 .f32 := broadcastInDim S16x4096 ![] bcast_S_S16x4096 main_cst_6
  let main_v21 : IVec S16x4096 1 := cmpf .olt main_v19 main_v20
  let main_c_7 : IVec S_ 1 := constantI S_ 1 1#1
  let main_v22 : IVec S_ 1 := (fun x v => Host.reduce IntOp.andi x v reducesTo_S16x4096_S_d0_1 h_S_) main_v21 main_c_7
  let main_v23 : IVec S_ 1 := andi main_v18 main_v22
  main_v23

def fn {F : FTy → Type} [FloatOps F] (main_arg0 : FVec F S4x4096x4096 .f32) (main_arg1 : FVec F S4096x4096 .f32) (main_arg2 : FVec F S4096 .f32) (main_arg3 : FVec F S4096x16 .f32) (main_arg4 : FVec F S16x4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x16 .f32 := Host.absf main_arg3
  let main_cst_4 : FVec F S_ .f32 := constant S_ .f32 0x7F800000#32
  let main_v15 : FVec F S4096x16 .f32 := broadcastInDim S4096x16 ![] bcast_S_S4096x16 main_cst_4
  let main_v16 : IVec S4096x16 1 := cmpf .olt main_v14 main_v15
  fn_part1 (F := F) main_arg4 main_v13 main_v16
-- ==== Kernel.lean ====
abbrev S4x4096x4096 : Shape := ⟨3, ![4, 4096, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S1024x1024 : Shape := ⟨2, ![1024, 1024]⟩
abbrev S1024x16 : Shape := ⟨2, ![1024, 16]⟩
abbrev S16x1024 : Shape := ⟨2, ![16, 1024]⟩
abbrev S16384x4096 : Shape := ⟨2, ![16384, 4096]⟩
abbrev S1x4096 : Shape := ⟨2, ![1, 4096]⟩
abbrev S1x1024 : Shape := ⟨2, ![1, 1024]⟩

abbrev nBuf : Space → Nat
  | .hbm => 10
  | .vmem => 17
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S4096x16, .f32⟩
  | .hbm, ⟨4, _⟩ => ⟨S16x4096, .f32⟩
  | .hbm, ⟨5, _⟩ => ⟨S4096x4096, .f32⟩
  | .hbm, ⟨6, _⟩ => ⟨S16384x4096, .f32⟩
  | .hbm, ⟨7, _⟩ => ⟨S1x4096, .f32⟩
  | .hbm, ⟨8, _⟩ => ⟨S16384x4096, .f32⟩
  | .hbm, ⟨9, _⟩ => ⟨S4x4096x4096, .f32⟩
  | .local _ .vmem, ⟨0, _⟩ => ⟨S1024x1024, .f32⟩
  | .local _ .vmem, ⟨1, _⟩ => ⟨S1024x1024, .f32⟩
  | .local _ .vmem, ⟨2, _⟩ => ⟨S1024x16, .f32⟩
  | .local _ .vmem, ⟨3, _⟩ => ⟨S1024x16, .f32⟩
  | .local _ .vmem, ⟨4, _⟩ => ⟨S16x1024, .f32⟩
  | .local _ .vmem, ⟨5, _⟩ => ⟨S16x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1x1024, .f32⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![16, 4, 4], ![false, false, false]⟩

def k1_cond2 (i : grid1.Coords) : BitVec 1 :=
  let arg2 : BitVec 32 := BitVec.ofNat 32 (i 2).val
  let c3_i32 : BitVec 32 := 3#32
  let v15 : BitVec 1 := Scalar.cmpi .eq arg2 c3_i32
  let v16 : BitVec 32 := Scalar.extui v15
  let c0_i32_8 : BitVec 32 := 0#32
  let v17 : BitVec 1 := Scalar.cmpi .ne v16 c0_i32_8
  v17

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  inb_S1024x1024_S1024x1024_0_0 : ∀ a, (![0, 0] : Fin 2 → Nat) a + S1024x1024.size a ≤ S1024x1024.size a
  h_S1024x1024 : 0 < S1024x1024.numel
  inb_S1024x16_S1024x16_0_0 : ∀ a, (![0, 0] : Fin 2 → Nat) a + S1024x16.size a ≤ S1024x16.size a
  h_S1024x16 : 0 < S1024x16.numel
  bitsLt_bf16_f32 : FTy.bits .bf16 < FTy.bits .f32
  inb_S16x1024_S16x1024_0_0 : ∀ a, (![0, 0] : Fin 2 → Nat) a + S16x1024.size a ≤ S16x1024.size a
  h_S16x1024 : 0 < S16x1024.numel
  shapeCasts_S4x4096x4096_S16384x4096 : S4x4096x4096.ShapeCasts S16384x4096
  shapeCasts_S4096_S1x4096 : S4096.ShapeCasts S1x4096
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S16384x4096_S4x4096x4096 : S16384x4096.ShapeCasts S4x4096x4096
  dot_S1024x16_S16x1024_S1024x1024_1_0_0_1_n_n_wf : DotDims.WF S1024x16 S16x1024 S1024x1024 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .f32 = 32 ∨ (Rect.block (s := S4096x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x16.size a ≤ S4096x16.size a
  hwx0_1 : ∀ i : grid0.Coords, EltTy.bits .f32 = 32 ∨ (Rect.block (s := S4096x16) S1024x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1024.size a ≤ S16x4096.size a
  hwx0_2 : ∀ i : grid0.Coords, EltTy.bits .f32 = 32 ∨ (Rect.block (s := S16x4096) S16x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .f32 = 32 ∨ (Rect.block (s := S4096x4096) S1024x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S16384x4096.size a
  hwx1_0 : ∀ i : grid1.Coords, EltTy.bits .f32 = 32 ∨ (Rect.block (s := S16384x4096) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .f32 = 32 ∨ (Rect.block (s := S4096x4096) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S16384x4096.size a
  hwx1_3 : ∀ i : grid1.Coords, EltTy.bits .f32 = 32 ∨ (Rect.block (s := S16384x4096) S1024x1024.size (cc1_transform_3 i) (hinb1_3 i)).WholeWords (EltTy.packing .f32)

variable [Facts₀]

def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S16x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x4096x4096 : Shape := ⟨3, ![4, 4096, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S1x1x4096 : Shape := ⟨3, ![1, 1, 4096]⟩
abbrev S4x4096x16 : Shape := ⟨3, ![4, 4096, 16]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S4096x16, .f32⟩
  | .hbm, ⟨4, _⟩ => ⟨S16x4096, .f32⟩
  | .hbm, ⟨5, _⟩ => ⟨S4x4096x4096, .f32⟩
  | .hbm, ⟨6, _⟩ => ⟨S1x1x4096, .f32⟩
  | .hbm, ⟨7, _⟩ => ⟨S4x4096x4096, .f32⟩
  | .hbm, ⟨8, _⟩ => ⟨S4x4096x4096, .f32⟩
  | .hbm, ⟨9, _⟩ => ⟨S4x4096x16, .f32⟩
  | .hbm, ⟨10, _⟩ => ⟨S4x4096x4096, .f32⟩
  | .hbm, ⟨11, _⟩ => ⟨S_, .f32⟩
  | .hbm, ⟨12, _⟩ => ⟨S4x4096x4096, .f32⟩
  | .hbm, ⟨13, _⟩ => ⟨S4x4096x4096, .f32⟩
  | .hbm, ⟨14, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  bcast_S_S4x4096x4096 : S_.BroadcastsInDim S4x4096x4096 (![] : Fin 0 → Fin S4x4096x4096.rank)
  dot_S4x4096x4096_S4096x4096_S4x4096x4096_2_0_01_1_n_n_wf : DotDims.WF S4x4096x4096 S4096x4096 S4x4096x4096 [2] [0] [0, 1] [1] [] []
  dot_S4x4096x4096_S4096x16_S4x4096x16_2_0_01_1_n_n_wf : DotDims.WF S4x4096x4096 S4096x16 S4x4096x16 [2] [0] [0, 1] [1] [] []
  dot_S4x4096x16_S16x4096_S4x4096x4096_2_0_01_1_n_n_wf : DotDims.WF S4x4096x16 S16x4096 S4x4096x4096 [2] [0] [0, 1] [1] [] []

variable [Facts₀]

def dot_S4x4096x4096_S4096x4096_S4x4096x4096_2_0_01_1_n_n : DotDims S4x4096x4096 S4096x4096 S4x4096x4096 where
  lhsContracting := [2]
  rhsContracting := [0]
  lhsNonContracting := [0, 1]
  rhsNonContracting := [1]
  lhsBatch := []
  rhsBatch := []
  wf := dot_S4x4096x4096_S4096x4096_S4x4096x4096_2_0_01_1_n_n_wf
def dot_S4x4096x4096_S4096x16_S4x4096x16_2_0_01_1_n_n : DotDims S4x4096x4096 S4096x16 S4x4096x16 where
  lhsContracting := [2]
  rhsContracting := [0]
  lhsNonContracting := [0, 1]
  rhsNonContracting := [1]
  lhsBatch := []
  rhsBatch := []
  wf := dot_S4x4096x4096_S4096x16_S4x4096x16_2_0_01_1_n_n_wf
def dot_S4x4096x16_S16x4096_S4x4096x4096_2_0_01_1_n_n : DotDims S4x4096x16 S16x4096 S4x4096x4096 where
  lhsContracting := [2]
  rhsContracting := [0]
  lhsNonContracting := [0, 1]
  rhsNonContracting := [1]
  lhsBatch := []
  rhsBatch := []
  wf := dot_S4x4096x16_S16x4096_S4x4096x4096_2_0_01_1_n_n_wf

class Facts : Prop extends Facts₀ where

variable [Facts]
-- ==== Proof.K.Region0.lean ====
/-
  The frame of the first launch (the merged weight `W + 2·(A·B)`, tile by tile), at any float instance.
  Each grid point (i, j) reads tile (i, j) of `W`, rows i of `A` and columns j of `B`, and writes tile (i, j) of the
  result; nothing is carried between points.
-/
import proofs.«144563_j86371792322948_1_alg».proof.Proof.Gen.Kernel.Launch
import proofs.«144563_j86371792322948_1_alg».proof.Proof.Gen.Kernel.Skeleton
import proofs.«144563_j86371792322948_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The first launch: the merged weight, one 1024 × 1024 tile per grid point

Stated at a parameter `V`: what the core's buffers hold when the launch is entered. -/

section Region0
variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetched it or the
    block index did not move: for any proof data over `V`'s arrays whose body leaves the input block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev rT : Rect S1024x1024 := Rect.unit (s := S1024x1024) ![0, 0] S1024x1024.size inb_S1024x1024_S1024x1024_0_0
abbrev rA : Rect S1024x16 := Rect.unit (s := S1024x16) ![0, 0] S1024x16.size inb_S1024x16_S1024x16_0_0
abbrev rB : Rect S16x1024 := Rect.unit (s := S16x1024) ![0, 0] S16x1024.size inb_S16x1024_S16x1024_0_0

/-- What the body leaves in the output tile's buffer: its one store, of the tile of `W` plus twice the product of the
    tile's rows of `A` with the tile's columns of `B`. -/
def out0_3 (x0 : Vec F S1024x1024 .f32) (x1 : Vec F S1024x16 .f32) (x2 : Vec F S16x1024 .f32) : Vec F S1024x1024 .f32 :=
  View.canon [⟨rT, k0_pay1 (View.ld x0 rT) (View.ld x1 rA) (View.ld x2 rB)⟩]

/-- The one store covers the buffer. -/
theorem cover0_3 (p0 : Vec F S1024x1024 .f32) (y : S1024x1024.Idx) :
    ∃ pc ∈ ([⟨rT, p0⟩] : List (View.Piece (Elt F) S1024x1024 .f32)), y ∈ pc.1.set :=
  View.cover_of_tiled [⟨rT, p0⟩] S1024x1024.size (by rfl) y

set_option maxHeartbeats 1000000 in
/-- The body on whole staging buffers: the three inputs at `x0`, `x1`, `x2` and the output at anything, it runs to the
    inputs unchanged and the output at `out0_3`. -/
theorem sound_kernel0 (c : Dev nD) (E : Set ℕ) (i : grid0.Coords)
    (arg2 : Memref sig .tc .vmem S1024x1024 .f32) (harg2 : arg2.IsWhole) (arg3 : Memref sig .tc .vmem S1024x16 .f32) (harg3 : arg3.IsWhole)
    (arg4 : Memref sig .tc .vmem S16x1024 .f32) (harg4 : arg4.IsWhole) (arg5 : Memref sig .tc .vmem S1024x1024 .f32) (harg5 : arg5.IsWhole)
    (x0 : Vec F S1024x1024 .f32) (x1 : Vec F S1024x16 .f32) (x2 : Vec F S16x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2)) -∗ K ⟨⟩))
      ⊢ wp frame (wpE (defs₀ (F := F)) Variants.none c none) E (cc0__weff_kernel i arg2 harg2 arg3 harg3 arg4 harg4 arg5 harg5) K := by
  simp only [cc0__weff_kernel_eq_skeleton]; unfold cc0__weff_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The launch's proof data on core `c`: the arrays as found; after the body each input's buffer at its block and
    the output's at `out0_3` of the three input blocks; the class invariant (the scoped rest and the generator
    register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's run applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the first launch, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.Region1.lean ====
/-
  The frame of the second launch (the product of the activations with the merged weight, plus the bias), at any
  float instance. The grid is (row tile, column tile, chunk of input features); the chunk axis is innermost. An
  accumulator scratch is zeroed at chunk 0, takes each chunk's partial product, and at chunk 3 the accumulator plus
  the bias row is stored into the output tile, which is written back only then. What the accumulator holds after
  each point is stated by recursion on the point, and carried by the launch's invariant.
-/
import proofs.«144563_j86371792322948_1_alg».proof.Proof.Gen.Kernel.Launch
import proofs.«144563_j86371792322948_1_alg».proof.Proof.Gen.Kernel.Skeleton
import proofs.«144563_j86371792322948_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The second launch: the product with the merged weight, accumulated over the four chunks of input features

Stated at a parameter `V`: what the core's buffers hold when the launch is entered. -/

section Region1
variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-tile rectangle the body loads and stores through. -/
abbrev rS : Rect S1024x1024 := Rect.unit (s := S1024x1024) ![0, 0] S1024x1024.size inb_S1024x1024_S1024x1024_0_0
/-- The bias row's whole-block rectangle. -/
abbrev rb : Rect S1x1024 := Rect.unit (s := S1x1024) ![0, 0] S1x1024.size inb_S1x1024_S1x1024_0_0

/-- The body's first branch (reset the accumulator) is taken where the chunk index is 0, -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- and its second (add the bias and store the output tile) where it is 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-- The accumulator scratch as a memref. -/
abbrev scM : Memref sig .tc .vmem S1024x1024 .f32 := Memref.whole cc1_scratch0

/-- The offsets of a whole-block rectangle are all zero. -/
theorem hz2 : (![0, 0] : Fin 2 → Nat) = fun _ => 0 := by funext a; fin_cases a <;> rfl

/-- Every index of a tile lies in the whole-tile rectangle. -/
theorem mem_rS (y : S1024x1024.Idx) : y ∈ (rS : Rect S1024x1024).set := View.mem_set_unit_zero hz2 _ y

/-- A list of stores whose last is a whole-tile store covers the tile. -/
theorem cover_cons_rS (w : Vec F S1024x1024 .f32) (L : List (View.Piece (Elt F) S1024x1024 .f32)) (y : S1024x1024.Idx) :
    ∃ pc ∈ ((⟨rS, w⟩ : View.Piece (Elt F) S1024x1024 .f32) :: L), y ∈ pc.1.set :=
  ⟨_, List.mem_cons_self, mem_rS y⟩

/-! ## The body, case by case

Chunk 0 resets the accumulator to zero before adding its product; chunks 1 and 2 add theirs onto what the chunk
before left; chunk 3 adds its product and then stores the accumulator plus the bias row into the output tile. One
step of the accumulation is `k1_pay2 x w acc = acc + x·w`. -/

set_option maxHeartbeats 2000000 in
/-- Chunk 0: the accumulator, found at anything, is left at `0 + x·w`. -/
theorem sound_kernel1_A (c : Dev nD) (E : Set ℕ) (i : grid1.Coords)
    (arg3 : Memref sig .tc .vmem S1024x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (hc0 : cond1_0 i) (hc1 : ¬cond1_1 i)
    (x0 : Vec F S1024x1024 .f32) (x1 : Vec F S1024x1024 .f32) (K : PUnit → sProp 𝕄) :
    iprop(owns (c : Thread nD τ) arg3 fullShare x0 ∗ owns (c : Thread nD τ) arg4 fullShare x1 ∗ (∃ d, owns (c : Thread nD τ) arg7 fullShare d)
        ∗ (iprop(owns (c : Thread nD τ) arg3 fullShare x0 ∗ owns (c : Thread nD τ) arg4 fullShare x1
            ∗ owns (c : Thread nD τ) arg7 fullShare (k1_pay2 x0 x1 (k1_pay1 (F := F)))) -∗ K ⟨⟩))
      ⊢ wp frame (wpE (defs₀ (F := F)) Variants.none c none) E (cc1__lora_matmul_kernel i arg3 harg3 arg4 harg4 arg5 harg5 arg6 harg6 arg7 harg7) K := by
  simp only [cc1__lora_matmul_kernel_eq_skeleton]; unfold cc1__lora_matmul_kernel_skel
  unfold owns
  iintro ⟨⟨%f0, %hf0, H0⟩, ⟨%f1, %hf1, H1⟩, ⟨%d7, %f7, -, H7⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H7
  ipureintro
  sl_unfold_words
  rw [View.read_writes_eq_canon _ _ _ (cover_cons_rS _ _), View.canon_cons_unit_zero hz2]
  rw [View.readCov_unit_zero _ hz2]
  simp only [View.readAt_eq_ld, View.ld_unit_zero (S := S1024x1024) hz2]

set_option maxHeartbeats 2000000 in
/-- Chunks 1 and 2: the accumulator, found at `xs`, is left at `xs + x·w`. -/
theorem sound_kernel1_B (c : Dev nD) (E : Set ℕ) (i : grid1.Coords)
    (arg3 : Memref sig .tc .vmem S1024x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (hc0 : ¬cond1_0 i) (hc1 : ¬cond1_1 i)
    (x0 : Vec F S1024x1024 .f32) (x1 : Vec F S1024x1024 .f32) (xs : Vec F S1024x1024 .f32) (K : PUnit → sProp 𝕄) :
    iprop(owns (c : Thread nD τ) arg3 fullShare x0 ∗ owns (c : Thread nD τ) arg4 fullShare x1 ∗ owns (c : Thread nD τ) arg7 fullShare xs
        ∗ (iprop(owns (c : Thread nD τ) arg3 fullShare x0 ∗ owns (c : Thread nD τ) arg4 fullShare x1
            ∗ owns (c : Thread nD τ) arg7 fullShare (k1_pay2 x0 x1 xs)) -∗ K ⟨⟩))
      ⊢ wp frame (wpE (defs₀ (F := F)) Variants.none c none) E (cc1__lora_matmul_kernel i arg3 harg3 arg4 harg4 arg5 harg5 arg6 harg6 arg7 harg7) K := by
  simp only [cc1__lora_matmul_kernel_eq_skeleton]; unfold cc1__lora_matmul_kernel_skel
  unfold owns
  iintro ⟨⟨%f0, %hf0, H0⟩, ⟨%f1, %hf1, H1⟩, ⟨%f7, %hf7, H7⟩, Hk⟩
  subst hf0; subst hf1; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H7
  ipureintro
  try sl_unfold_words
  rw [View.read_writes_eq_canon _ _ _ (cover_cons_rS _ _), View.canon_cons_unit_zero hz2]
  simp only [View.readAt_eq_ld, View.ld_unit_zero (S := S1024x1024) hz2]

set_option maxHeartbeats 2000000 in
/-- Chunk 3: the accumulator, found at `xs`, is left at `xs + x·w`, and the output tile at that plus the bias row. -/
theorem sound_kernel1_C (c : Dev nD) (E : Set ℕ) (i : grid1.Coords)
    (arg3 : Memref sig .tc .vmem S1024x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (hc0 : ¬cond1_0 i) (hc1 : cond1_1 i)
    (x0 : Vec F S1024x1024 .f32) (x1 : Vec F S1024x1024 .f32) (x2 : Vec F S1x1024 .f32) (xs : Vec F S1024x1024 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare (k1_pay3 (k1_pay2 x0 x1 xs) x2)
            ∗ owns (c : Thread nD τ) arg7 fullShare (k1_pay2 x0 x1 xs)) -∗ K ⟨⟩))
      ⊢ wp frame (wpE (defs₀ (F := F)) Variants.none c none) E (cc1__lora_matmul_kernel i arg3 harg3 arg4 harg4 arg5 harg5 arg6 harg6 arg7 harg7) K := by
  simp only [cc1__lora_matmul_kernel_eq_skeleton]; unfold cc1__lora_matmul_kernel_skel
  unfold owns
  iintro ⟨⟨%f0, %hf0, H0⟩, ⟨%f1, %hf1, H1⟩, ⟨%f2, %hf2, H2⟩, ⟨%d6, %f6, -, H6⟩, ⟨%f7, %hf7, H7⟩, Hk⟩
  subst hf0; subst hf1; subst hf2; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H6]
  · iexists _; isplitr
    swap; · iexact H6
    ipureintro
    try sl_unfold_words
    rw [View.read_writes_eq_canon _ _ _ (cover_cons_rS _ _), View.canon_cons_unit_zero hz2]
    rw [View.readCov_unit_zero _ hz2]
    simp only [View.readAt_eq_ld, View.ld_unit_zero (S := S1024x1024) hz2, View.ld_unit_zero (S := S1x1024) hz2]
  iexists _; isplitr
  swap; · iexact H7
  ipureintro
  try sl_unfold_words
  rw [View.read_writes_eq_canon _ _ _ (cover_cons_rS _ _), View.canon_cons_unit_zero hz2]
  simp only [View.readAt_eq_ld, View.ld_unit_zero (S := S1024x1024) hz2]

/-! ## What the accumulator and the output tile hold after each point -/

/-- The input blocks at a point, at their literal types: a tile of the activations, a tile of the merged weight, a
    slice of the bias row. -/
abbrev xblk (c : Dev nD) (t : Fin cfg1.N) : Vec F S1024x1024 .f32 := iblk1 V c 0 t
abbrev wblk (c : Dev nD) (t : Fin cfg1.N) : Vec F S1024x1024 .f32 := iblk1 V c 1 t
abbrev bblk (c : Dev nD) (t : Fin cfg1.N) : Vec F S1x1024 .f32 := iblk1 V c 2 t

/-- THE ACCUMULATION. The accumulator after the body at position `n`: this point's product added onto zero where the
    chunk index is 0, onto what the point before left elsewhere. -/
def accAt (c : Dev nD) : (n : ℕ) → n < cfg1.N → Vec F S1024x1024 .f32
  | 0, hn => k1_pay2 (xblk V c ⟨0, hn⟩) (wblk V c ⟨0, hn⟩) (k1_pay1 (F := F))
  | n + 1, hn =>
    if (n + 1) % 4 = 0 then k1_pay2 (xblk V c ⟨n + 1, hn⟩) (wblk V c ⟨n + 1, hn⟩) (k1_pay1 (F := F))
    else k1_pay2 (xblk V c ⟨n + 1, hn⟩) (wblk V c ⟨n + 1, hn⟩) (accAt c n (Nat.lt_of_succ_lt hn))

/-- At a point of chunk 0 the accumulator restarts from zero. -/
theorem accAt_reset (c : Dev nD) (t : Fin cfg1.N) (h0 : t.val % 4 = 0) :
    accAt V c t.val t.isLt = k1_pay2 (xblk V c t) (wblk V c t) (k1_pay1 (F := F)) := by
  obtain ⟨n, hn⟩ := t
  cases n with
  | zero => rfl
  | succ n => exact if_pos h0

/-- At any other point it continues from what the point before left. -/
theorem accAt_step (c : Dev nD) (t : Fin cfg1.N) (h0 : ¬t.val % 4 = 0) :
    accAt V c t.val t.isLt = k1_pay2 (xblk V c t) (wblk V c t) (accAt V c (t.val - 1) (Nat.lt_of_le_of_lt (Nat.sub_le _ _) t.isLt)) := by
  obtain ⟨n, hn⟩ := t
  cases n with
  | zero => exact absurd (Nat.zero_mod _) h0
  | succ n => exact if_neg h0

/-- The core's scoped buffers that the second launch does not stage: the first launch's eight staging buffers, each at
    some contents, and the accumulator scratch at `S`. -/
def scopedWith (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ S)

/-- The class invariant with the accumulator scratch as a memref owned at some contents. -/
theorem PhiA1_eq (c : Dev nD) :
    (Pipeline.ΦA spec1 c : sProp 𝕄)
      = iprop(scopedWith c (iprop(∃ d, owns (c : Thread nD τ) scM fullShare d)) ∗ (∃ r, prngReg c r)) := by
  unfold Pipeline.ΦA scopedWith; rw [scopedRest1_eq]; simp only [scM, owns_whole]; try rfl

/-- The launch's invariant before position `n`: before the first point the class's (the scratch at anything);
    afterwards the accumulator scratch at what the point before left in it. -/
def PhiS (c : Dev nD) : (n : ℕ) → n ≤ cfg1.N → sProp 𝕄
  | 0, _ => Pipeline.ΦA spec1 c
  | n + 1, hn => iprop(scopedWith c (owns (c : Thread nD τ) scM fullShare (accAt V c n hn)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(scopedWith c (owns (c : Thread nD τ) scM fullShare (accAt V c n hn)) ∗ (∃ r, prngReg c r)) := rfl

theorem PhiS_pos (c : Dev nD) (n : ℕ) (h : n ≤ cfg1.N) (hz : n ≠ 0) :
    PhiS V c n h = iprop(scopedWith c (owns (c : Thread nD τ) scM fullShare (accAt V c (n - 1) (by omega))) ∗ (∃ r, prngReg c r)) := by
  cases n with
  | zero => exact absurd rfl hz
  | succ n => rfl

/-! ## The proof data -/

/-- The second launch's proof data on core `c`: the arrays as found; after the body each input's buffer at its block,
    the output tile's at the accumulator plus the bias row (it is written back only after chunk 3); the invariant
    `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (accAt V c t.val t.isLt) (bblk V c t)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay3 (accAt V c t.val t.isLt) (bblk V c t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- The input windows are never idle; the output tile is idle, and not written back, except after chunk 3. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem idleAt1_3 : ∀ t : Fin cfg1.N, cfg1.idle 3 (grid1.coords t) = true ↔ ¬t.val % 4 = 3 :=
  (by decide +kernel : ∀ t : Fin grid1.N, idle1 3 (grid1.coords t) = true ↔ ¬t.val % 4 = 3)
theorem liveAt1_3 (t : Fin cfg1.N) (h : t.val % 4 = 3) : cfg1.idle 3 (grid1.coords t) = false := by
  cases hi : cfg1.idle 3 (grid1.coords t) with
  | false => rfl
  | true => exact absurd h ((idleAt1_3 t).mp hi)
theorem noFlush1_3 (t : Fin cfg1.N) (h : ¬t.val % 4 = 3) : (cfg1.win 3).flush t = false := by
  cases hf : (cfg1.win 3).flush t with
  | false => rfl
  | true => exact absurd ((flush1_3 t).mp hf) h

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4000000 in
/-- The body at any point: the inputs' buffers hold their blocks; the point's chunk index says which case runs; the
    invariant hands the body the accumulator at what the point before left (at anything at the very first point) and
    takes it back at this point's contents; the output tile's buffer is handed back untouched except after chunk 3. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (st1_0 t) fullShare ((dat1 V c).after 0 t) from by
      unfold Dat.leavesExact; rw [liveAt1_0 t], after1_0,
    show (dat1 V c).leavesExact 1 t = owns (c : Thread nD τ) (st1_1 t) fullShare ((dat1 V c).after 1 t) from by
      unfold Dat.leavesExact; rw [liveAt1_1 t], after1_1,
    show (dat1 V c).leavesExact 2 t = owns (c : Thread nD τ) (st1_2 t) fullShare ((dat1 V c).after 2 t) from by
      unfold Dat.leavesExact; rw [liveAt1_2 t], after1_2]
  have hN : t.val < 256 := lt_of_lt_of_eq t.isLt (show cfg1.N = 256 from N_1)
  by_cases h0 : t.val % 4 = 0
  · have h1 : ¬t.val % 4 = 3 := by omega
    rw [Dat.leavesExact_idle (dat1 V c) 3 t ((idleAt1_3 t).mpr h1) (noFlush1_3 t h1)]
    rw [accAt_reset V c t h0]
    by_cases hz : t.val = 0
    · rw [PhiS_castSucc V c t, PhiS_zero V c _ _ hz, PhiA1_eq]
      unfold scopedWith
      iintro ⟨⟨⟨A1, A2, A3, A4, A5, A6, A7, A8, HS⟩, Hg⟩, Ho, ⟨%d0, H0⟩, ⟨%d1, H1⟩, ⟨%d2, H2⟩, ⟨%d3, H3⟩⟩
      iapply (sound_kernel1_A c Set.univ (grid1.coords t) _ _ _ _ _ _ _ _ _ _ ((hcond1_0 t).mpr h0) (fun h => h1 ((hcond1_1 t).mp h)) (xblk V c t) (wblk V c t) _)
      isplitl [H0]; · iexact H0
      isplitl [H1]; · iexact H1
      isplitl [HS]; · iexact HS
      iintro ⟨H0, H1, HS⟩
      isplitl [A1 A2 A3 A4 A5 A6 A7 A8 HS Hg]
      · isplitr [Hg]
        · isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          iexact HS
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      unfold scopedWith
      iintro ⟨⟨⟨A1, A2, A3, A4, A5, A6, A7, A8, HS⟩, Hg⟩, Ho, ⟨%d0, H0⟩, ⟨%d1, H1⟩, ⟨%d2, H2⟩, ⟨%d3, H3⟩⟩
      iapply (sound_kernel1_A c Set.univ (grid1.coords t) _ _ _ _ _ _ _ _ _ _ ((hcond1_0 t).mpr h0) (fun h => h1 ((hcond1_1 t).mp h)) (xblk V c t) (wblk V c t) _)
      isplitl [H0]; · iexact H0
      isplitl [H1]; · iexact H1
      isplitl [HS]; · iexists _; iexact HS
      iintro ⟨H0, H1, HS⟩
      isplitl [A1 A2 A3 A4 A5 A6 A7 A8 HS Hg]
      · isplitr [Hg]
        · isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          iexact HS
        iexact Hg
      isplitl [Ho]; · iexact Ho
      isplitl [H0]; · iexact H0
      isplitl [H1]; · iexact H1
      isplitl [H2]; · iexact H2
      iexists _; iexact H3
  · have hz : t.val ≠ 0 := fun h => h0 (by rw [h])
    rw [accAt_step V c t h0, PhiS_castSucc V c t, PhiS_pos V c _ _ hz]
    unfold scopedWith
    by_cases h1 : t.val % 4 = 3
    · rw [show (dat1 V c).leavesExact 3 t = owns (c : Thread nD τ) (st1_3 t) fullShare ((dat1 V c).after 3 t) from by
        unfold Dat.leavesExact; rw [liveAt1_3 t h1], after1_3, accAt_step V c t h0]
      iintro ⟨⟨⟨A1, A2, A3, A4, A5, A6, A7, A8, HS⟩, Hg⟩, Ho, ⟨%d0, H0⟩, ⟨%d1, H1⟩, ⟨%d2, H2⟩, ⟨%d3, H3⟩⟩
      iapply (sound_kernel1_C c Set.univ (grid1.coords t) _ _ _ _ _ _ _ _ _ _ (fun h => h0 ((hcond1_0 t).mp h)) ((hcond1_1 t).mpr h1) (xblk V c t) (wblk V c t) (bblk V c t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [A1 A2 A3 A4 A5 A6 A7 A8 HS Hg]
      · isplitr [Hg]
        · isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          iexact HS
        iexact Hg
      isplitl [Ho]; · iexact Ho
      isplitl [H0]; · iexact H0
      isplitl [H1]; · iexact H1
      isplitl [H2]; · iexact H2
      iexact H3
    · rw [Dat.leavesExact_idle (dat1 V c) 3 t ((idleAt1_3 t).mpr h1) (noFlush1_3 t h1)]
      iintro ⟨⟨⟨A1, A2, A3, A4, A5, A6, A7, A8, HS⟩, Hg⟩, Ho, ⟨%d0, H0⟩, ⟨%d1, H1⟩, ⟨%d2, H2⟩, ⟨%d3, H3⟩⟩
      iapply (sound_kernel1_B c Set.univ (grid1.coords t) _ _ _ _ _ _ _ _ _ _ (fun h => h0 ((hcond1_0 t).mp h)) (fun h => h1 ((hcond1_1 t).mp h)) (xblk V c t) (wblk V c t) _ _)
      isplitl [H0]; · iexact H0
      isplitl [H1]; · iexact H1
      isplitl [HS]; · iexact HS
      iintro ⟨H0, H1, HS⟩
      isplitl [A1 A2 A3 A4 A5 A6 A7 A8 HS Hg]
      · isplitr [Hg]
        · isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          iexact HS
        iexact Hg
      isplitl [Ho]; · iexact Ho
      isplitl [H0]; · iexact H0
      isplitl [H1]; · iexact H1
      isplitl [H2]; · iexact H2
      iexists _; iexact H3

/-- The body obligation of the second launch, at every point. -/
theorem body_obligation1 (c : Dev nD) : BodyObligation (dat1 (F := F) V c) (defs₀ (F := F)) Variants.none () Set.univ := fun t => by
  rw [bigSep_W1, bigSep_W1]
  exact sound_body1 V c t

/-- What the launch hands the region (the class invariant) is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class invariant back: the accumulator's contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 256 := N_1; omega), PhiA1_eq]
  unfold scopedWith
  iintro ⟨⟨A1, A2, A3, A4, A5, A6, A7, A8, HS⟩, Hg⟩
  isplitr [Hg]
  · isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    iexists _; iexact HS
  iexact Hg

end Region1

end Cert.Kernel.Hand

end
-- ==== Proof.K.Run.lean ====
/-
  The run of the whole program, at any float instance: the first launch (the merged weight), two reshapes, the second
  launch (the accumulated product plus bias), the closing reshape. The buffers' contents at each boundary are a fold
  from the launch memory: a launch leaves its arrays at what its write-backs leave and every other buffer as it was;
  a reshape writes only its result. Read at the arguments the fold walks back to the launch memory (the frame); read
  at the result it is the reshape of what the second launch's write-backs leave.
-/
import proofs.«144563_j86371792322948_1_alg».proof.Proof.Gen.Kernel.Launch
import proofs.«144563_j86371792322948_1_alg».proof.Proof.Gen.Kernel.Skeleton
import proofs.«144563_j86371792322948_1_alg».proof.Proof.Gen.Kernel.Points
import proofs.«144563_j86371792322948_1_alg».proof.Proof.K.Region0
import proofs.«144563_j86371792322948_1_alg».proof.Proof.K.Region1
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of @main: a fold from the launch memory -/

/-- Core `c`'s buffers at launch (the first launch's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At the first launch's exit: its arrays at what its write-backs leave, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the two reshapes between the launches (the second launch's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- At the second launch's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- After the closing reshape (the return). -/
abbrev W4 : Dev nD → Valuation τ sig (Elt F) := fun c => StableHlo.after hostOps2 (W3 m ρ c)

/-! ## The proof data family and the thread state -/

abbrev adm : (p : Fin 2) → (pcfgs (F := F) p).Adm := fun p => (cfgs p).toPCfg_adm
/-- Each launch's proof data at its entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents. -/
abbrev Tₙ (c : Dev nD) : sProp 𝕄 := iprop(StableHlo.held (c : Thread nD τ) (Pipeline.ucRefs τ sig) (W4 m ρ c) ∗ ∃ r, prngReg c r)

/-! ## The launches as segments -/

set_option backward.isDefEq.respectTransparency.types false in
/-- The first launch over the thread state: entered from every unscoped buffer at `W0`, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second launch over the thread state: entered from every unscoped buffer at `W2`, left at `W3`. Its invariant
    takes the scoped rest in at the first point and, after the last, gives it back with the accumulator's contents
    forgotten. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

/-- @main's four segments in order: the first launch, the two reshapes, the second launch, the closing reshape. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- THE RUN. From any memory with zero counters every weakly fair execution of @main on the TensorCores terminates,
    nothing faulting, and in every final state each unscoped buffer holds what the fold `W4` says. -/
theorem run_vals : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, Ho⟩
      isplitr [Ho]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-! ## The arguments end as launched, and the result is the second launch's output, reshaped -/

theorem hostOps1_keeps (b : Ref sig .tc) (h1 : b ≠ main_v1) (h2 : b ≠ main_v2) (W : Valuation τ sig (Elt F)) :
    StableHlo.after hostOps1 W (Proc.devRef .tc b) = W (Proc.devRef .tc b) :=
  StableHlo.after_of_forall_not_mem (b := Proc.devRef .tc b) _ _ (List.forall_iff_forall_mem.mp (by
    simp only [hostOps1, List.Forall, StableHlo.reshape_writes, Finset.mem_singleton]
    exact ⟨StableHlo.devRef_ne_of_ne h1, StableHlo.devRef_ne_of_ne h2⟩))
theorem hostOps2_keeps (b : Ref sig .tc) (h1 : b ≠ main_v4) (W : Valuation τ sig (Elt F)) :
    StableHlo.after hostOps2 W (Proc.devRef .tc b) = W (Proc.devRef .tc b) :=
  StableHlo.after_of_forall_not_mem (b := Proc.devRef .tc b) _ _ (List.forall_iff_forall_mem.mp (by
    simp only [hostOps2, List.Forall, StableHlo.reshape_writes, Finset.mem_singleton]
    exact StableHlo.devRef_ne_of_ne h1))

/-- An argument no launch writes and no reshape writes is, at the end, as launched. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := hostOps2_keeps main_arg0 (by decide) _
    _ = W2 m ρ c (Proc.devRef .tc main_arg0) := W3_of_ne m ρ c main_arg0 (by decide)
    _ = W1 m ρ c (Proc.devRef .tc main_arg0) := hostOps1_keeps main_arg0 (by decide) (by decide) _
    _ = W0 m ρ c (Proc.devRef .tc main_arg0) := W1_of_ne m ρ c main_arg0 (by decide)
    _ = m ((c : Thread nD τ).loc main_arg0) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := hostOps2_keeps main_arg2 (by decide) _
    _ = W2 m ρ c (Proc.devRef .tc main_arg2) := W3_of_ne m ρ c main_arg2 (by decide)
    _ = W1 m ρ c (Proc.devRef .tc main_arg2) := hostOps1_keeps main_arg2 (by decide) (by decide) _
    _ = W0 m ρ c (Proc.devRef .tc main_arg2) := W1_of_ne m ρ c main_arg2 (by decide)
    _ = m ((c : Thread nD τ).loc main_arg2) := rfl
/-- An argument the first launch reads through an input window is left as it found it. -/
theorem W1_in (c : Dev nD) (w : Fin cfg0.W) (hw : (cfg0.win w).isOut = false) :
    W1 m ρ c (Proc.devRef .tc (Pipeline.arrRef spec0 w)) = W0 m ρ c (Proc.devRef .tc (Pipeline.arrRef spec0 w)) :=
  (W1_arr m ρ c w).trans (((dat0 (V0 m ρ) c).arrAt_in w hw _).trans (A_eq0 (V0 m ρ) c w))
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := hostOps2_keeps main_arg1 (by decide) _
    _ = W2 m ρ c (Proc.devRef .tc main_arg1) := W3_of_ne m ρ c main_arg1 (by decide)
    _ = W1 m ρ c (Proc.devRef .tc main_arg1) := hostOps1_keeps main_arg1 (by decide) (by decide) _
    _ = W0 m ρ c (Proc.devRef .tc main_arg1) := W1_in m ρ c 0 rfl
    _ = m ((c : Thread nD τ).loc main_arg1) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := hostOps2_keeps main_arg3 (by decide) _
    _ = W2 m ρ c (Proc.devRef .tc main_arg3) := W3_of_ne m ρ c main_arg3 (by decide)
    _ = W1 m ρ c (Proc.devRef .tc main_arg3) := hostOps1_keeps main_arg3 (by decide) (by decide) _
    _ = W0 m ρ c (Proc.devRef .tc main_arg3) := W1_in m ρ c 1 rfl
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := hostOps2_keeps main_arg4 (by decide) _
    _ = W2 m ρ c (Proc.devRef .tc main_arg4) := W3_of_ne m ρ c main_arg4 (by decide)
    _ = W1 m ρ c (Proc.devRef .tc main_arg4) := hostOps1_keeps main_arg4 (by decide) (by decide) _
    _ = W0 m ρ c (Proc.devRef .tc main_arg4) := W1_in m ρ c 2 rfl
    _ = m ((c : Thread nD τ).loc main_arg4) := rfl

/-- THE FRAME: the program runs to the end, faults nowhere, and leaves its five arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_vals m ρ)

end Cert.Kernel.Hand

end
-- ==== Proof.KI.Region0.lean ====
/-
  The frame of the first launch (the merged weight `W + 2·(A·B)`, tile by tile), at any float instance.
  Each grid point (i, j) reads tile (i, j) of `W`, rows i of `A` and columns j of `B`, and writes tile (i, j) of the
  result; nothing is carried between points.
-/
import proofs.«144563_j86371792322948_1_alg».proof.Proof.Gen.KernelIdeal.Launch
import proofs.«144563_j86371792322948_1_alg».proof.Proof.Gen.KernelIdeal.Skeleton
import proofs.«144563_j86371792322948_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The first launch: the merged weight, one 1024 × 1024 tile per grid point

Stated at a parameter `V`: what the core's buffers hold when the launch is entered. -/

section Region0
variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetched it or the
    block index did not move: for any proof data over `V`'s arrays whose body leaves the input block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev rT : Rect S1024x1024 := Rect.unit (s := S1024x1024) ![0, 0] S1024x1024.size inb_S1024x1024_S1024x1024_0_0
abbrev rA : Rect S1024x16 := Rect.unit (s := S1024x16) ![0, 0] S1024x16.size inb_S1024x16_S1024x16_0_0
abbrev rB : Rect S16x1024 := Rect.unit (s := S16x1024) ![0, 0] S16x1024.size inb_S16x1024_S16x1024_0_0

/-- What the body leaves in the output tile's buffer: its one store, of the tile of `W` plus twice the product of the
    tile's rows of `A` with the tile's columns of `B`. -/
def out0_3 (x0 : Vec F S1024x1024 .f32) (x1 : Vec F S1024x16 .f32) (x2 : Vec F S16x1024 .f32) : Vec F S1024x1024 .f32 :=
  View.canon [⟨rT, k0_pay1 (View.ld x0 rT) (View.ld x1 rA) (View.ld x2 rB)⟩]

/-- The one store covers the buffer. -/
theorem cover0_3 (p0 : Vec F S1024x1024 .f32) (y : S1024x1024.Idx) :
    ∃ pc ∈ ([⟨rT, p0⟩] : List (View.Piece (Elt F) S1024x1024 .f32)), y ∈ pc.1.set :=
  View.cover_of_tiled [⟨rT, p0⟩] S1024x1024.size (by rfl) y

set_option maxHeartbeats 1000000 in
/-- The body on whole staging buffers: the three inputs at `x0`, `x1`, `x2` and the output at anything, it runs to the
    inputs unchanged and the output at `out0_3`. -/
theorem sound_kernel0 (c : Dev nD) (E : Set ℕ) (i : grid0.Coords)
    (arg2 : Memref sig .tc .vmem S1024x1024 .f32) (harg2 : arg2.IsWhole) (arg3 : Memref sig .tc .vmem S1024x16 .f32) (harg3 : arg3.IsWhole)
    (arg4 : Memref sig .tc .vmem S16x1024 .f32) (harg4 : arg4.IsWhole) (arg5 : Memref sig .tc .vmem S1024x1024 .f32) (harg5 : arg5.IsWhole)
    (x0 : Vec F S1024x1024 .f32) (x1 : Vec F S1024x16 .f32) (x2 : Vec F S16x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2)) -∗ K ⟨⟩))
      ⊢ wp frame (wpE (defs₀ (F := F)) Variants.none c none) E (cc0__weff_kernel i arg2 harg2 arg3 harg3 arg4 harg4 arg5 harg5) K := by
  simp only [cc0__weff_kernel_eq_skeleton]; unfold cc0__weff_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The launch's proof data on core `c`: the arrays as found; after the body each input's buffer at its block and
    the output's at `out0_3` of the three input blocks; the class invariant (the scoped rest and the generator
    register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's run applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the first launch, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.Region1.lean ====
/-
  The frame of the second launch (the product of the activations with the merged weight, plus the bias), at any
  float instance. The grid is (row tile, column tile, chunk of input features); the chunk axis is innermost. An
  accumulator scratch is zeroed at chunk 0, takes each chunk's partial product, and at chunk 3 the accumulator plus
  the bias row is stored into the output tile, which is written back only then. What the accumulator holds after
  each point is stated by recursion on the point, and carried by the launch's invariant.
-/
import proofs.«144563_j86371792322948_1_alg».proof.Proof.Gen.KernelIdeal.Launch
import proofs.«144563_j86371792322948_1_alg».proof.Proof.Gen.KernelIdeal.Skeleton
import proofs.«144563_j86371792322948_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The second launch: the product with the merged weight, accumulated over the four chunks of input features

Stated at a parameter `V`: what the core's buffers hold when the launch is entered. -/

section Region1
variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-tile rectangle the body loads and stores through. -/
abbrev rS : Rect S1024x1024 := Rect.unit (s := S1024x1024) ![0, 0] S1024x1024.size inb_S1024x1024_S1024x1024_0_0
/-- The bias row's whole-block rectangle. -/
abbrev rb : Rect S1x1024 := Rect.unit (s := S1x1024) ![0, 0] S1x1024.size inb_S1x1024_S1x1024_0_0

/-- The body's first branch (reset the accumulator) is taken where the chunk index is 0, -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- and its second (add the bias and store the output tile) where it is 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-- The accumulator scratch as a memref. -/
abbrev scM : Memref sig .tc .vmem S1024x1024 .f32 := Memref.whole cc1_scratch0

/-- The offsets of a whole-block rectangle are all zero. -/
theorem hz2 : (![0, 0] : Fin 2 → Nat) = fun _ => 0 := by funext a; fin_cases a <;> rfl

/-- Every index of a tile lies in the whole-tile rectangle. -/
theorem mem_rS (y : S1024x1024.Idx) : y ∈ (rS : Rect S1024x1024).set := View.mem_set_unit_zero hz2 _ y

/-- A list of stores whose last is a whole-tile store covers the tile. -/
theorem cover_cons_rS (w : Vec F S1024x1024 .f32) (L : List (View.Piece (Elt F) S1024x1024 .f32)) (y : S1024x1024.Idx) :
    ∃ pc ∈ ((⟨rS, w⟩ : View.Piece (Elt F) S1024x1024 .f32) :: L), y ∈ pc.1.set :=
  ⟨_, List.mem_cons_self, mem_rS y⟩

/-! ## The body, case by case

Chunk 0 resets the accumulator to zero before adding its product; chunks 1 and 2 add theirs onto what the chunk
before left; chunk 3 adds its product and then stores the accumulator plus the bias row into the output tile. One
step of the accumulation is `k1_pay2 x w acc = acc + x·w`. -/

set_option maxHeartbeats 2000000 in
/-- Chunk 0: the accumulator, found at anything, is left at `0 + x·w`. -/
theorem sound_kernel1_A (c : Dev nD) (E : Set ℕ) (i : grid1.Coords)
    (arg3 : Memref sig .tc .vmem S1024x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (hc0 : cond1_0 i) (hc1 : ¬cond1_1 i)
    (x0 : Vec F S1024x1024 .f32) (x1 : Vec F S1024x1024 .f32) (K : PUnit → sProp 𝕄) :
    iprop(owns (c : Thread nD τ) arg3 fullShare x0 ∗ owns (c : Thread nD τ) arg4 fullShare x1 ∗ (∃ d, owns (c : Thread nD τ) arg7 fullShare d)
        ∗ (iprop(owns (c : Thread nD τ) arg3 fullShare x0 ∗ owns (c : Thread nD τ) arg4 fullShare x1
            ∗ owns (c : Thread nD τ) arg7 fullShare (k1_pay2 x0 x1 (k1_pay1 (F := F)))) -∗ K ⟨⟩))
      ⊢ wp frame (wpE (defs₀ (F := F)) Variants.none c none) E (cc1__lora_matmul_kernel i arg3 harg3 arg4 harg4 arg5 harg5 arg6 harg6 arg7 harg7) K := by
  simp only [cc1__lora_matmul_kernel_eq_skeleton]; unfold cc1__lora_matmul_kernel_skel
  unfold owns
  iintro ⟨⟨%f0, %hf0, H0⟩, ⟨%f1, %hf1, H1⟩, ⟨%d7, %f7, -, H7⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H7
  ipureintro
  sl_unfold_words
  rw [View.read_writes_eq_canon _ _ _ (cover_cons_rS _ _), View.canon_cons_unit_zero hz2]
  rw [View.readCov_unit_zero _ hz2]
  simp only [View.readAt_eq_ld, View.ld_unit_zero (S := S1024x1024) hz2]

set_option maxHeartbeats 2000000 in
/-- Chunks 1 and 2: the accumulator, found at `xs`, is left at `xs + x·w`. -/
theorem sound_kernel1_B (c : Dev nD) (E : Set ℕ) (i : grid1.Coords)
    (arg3 : Memref sig .tc .vmem S1024x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (hc0 : ¬cond1_0 i) (hc1 : ¬cond1_1 i)
    (x0 : Vec F S1024x1024 .f32) (x1 : Vec F S1024x1024 .f32) (xs : Vec F S1024x1024 .f32) (K : PUnit → sProp 𝕄) :
    iprop(owns (c : Thread nD τ) arg3 fullShare x0 ∗ owns (c : Thread nD τ) arg4 fullShare x1 ∗ owns (c : Thread nD τ) arg7 fullShare xs
        ∗ (iprop(owns (c : Thread nD τ) arg3 fullShare x0 ∗ owns (c : Thread nD τ) arg4 fullShare x1
            ∗ owns (c : Thread nD τ) arg7 fullShare (k1_pay2 x0 x1 xs)) -∗ K ⟨⟩))
      ⊢ wp frame (wpE (defs₀ (F := F)) Variants.none c none) E (cc1__lora_matmul_kernel i arg3 harg3 arg4 harg4 arg5 harg5 arg6 harg6 arg7 harg7) K := by
  simp only [cc1__lora_matmul_kernel_eq_skeleton]; unfold cc1__lora_matmul_kernel_skel
  unfold owns
  iintro ⟨⟨%f0, %hf0, H0⟩, ⟨%f1, %hf1, H1⟩, ⟨%f7, %hf7, H7⟩, Hk⟩
  subst hf0; subst hf1; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H7
  ipureintro
  try sl_unfold_words
  rw [View.read_writes_eq_canon _ _ _ (cover_cons_rS _ _), View.canon_cons_unit_zero hz2]
  simp only [View.readAt_eq_ld, View.ld_unit_zero (S := S1024x1024) hz2]

set_option maxHeartbeats 2000000 in
/-- Chunk 3: the accumulator, found at `xs`, is left at `xs + x·w`, and the output tile at that plus the bias row. -/
theorem sound_kernel1_C (c : Dev nD) (E : Set ℕ) (i : grid1.Coords)
    (arg3 : Memref sig .tc .vmem S1024x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (hc0 : ¬cond1_0 i) (hc1 : cond1_1 i)
    (x0 : Vec F S1024x1024 .f32) (x1 : Vec F S1024x1024 .f32) (x2 : Vec F S1x1024 .f32) (xs : Vec F S1024x1024 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare (k1_pay3 (k1_pay2 x0 x1 xs) x2)
            ∗ owns (c : Thread nD τ) arg7 fullShare (k1_pay2 x0 x1 xs)) -∗ K ⟨⟩))
      ⊢ wp frame (wpE (defs₀ (F := F)) Variants.none c none) E (cc1__lora_matmul_kernel i arg3 harg3 arg4 harg4 arg5 harg5 arg6 harg6 arg7 harg7) K := by
  simp only [cc1__lora_matmul_kernel_eq_skeleton]; unfold cc1__lora_matmul_kernel_skel
  unfold owns
  iintro ⟨⟨%f0, %hf0, H0⟩, ⟨%f1, %hf1, H1⟩, ⟨%f2, %hf2, H2⟩, ⟨%d6, %f6, -, H6⟩, ⟨%f7, %hf7, H7⟩, Hk⟩
  subst hf0; subst hf1; subst hf2; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H6]
  · iexists _; isplitr
    swap; · iexact H6
    ipureintro
    try sl_unfold_words
    rw [View.read_writes_eq_canon _ _ _ (cover_cons_rS _ _), View.canon_cons_unit_zero hz2]
    rw [View.readCov_unit_zero _ hz2]
    simp only [View.readAt_eq_ld, View.ld_unit_zero (S := S1024x1024) hz2, View.ld_unit_zero (S := S1x1024) hz2]
  iexists _; isplitr
  swap; · iexact H7
  ipureintro
  try sl_unfold_words
  rw [View.read_writes_eq_canon _ _ _ (cover_cons_rS _ _), View.canon_cons_unit_zero hz2]
  simp only [View.readAt_eq_ld, View.ld_unit_zero (S := S1024x1024) hz2]

/-! ## What the accumulator and the output tile hold after each point -/

/-- The input blocks at a point, at their literal types: a tile of the activations, a tile of the merged weight, a
    slice of the bias row. -/
abbrev xblk (c : Dev nD) (t : Fin cfg1.N) : Vec F S1024x1024 .f32 := iblk1 V c 0 t
abbrev wblk (c : Dev nD) (t : Fin cfg1.N) : Vec F S1024x1024 .f32 := iblk1 V c 1 t
abbrev bblk (c : Dev nD) (t : Fin cfg1.N) : Vec F S1x1024 .f32 := iblk1 V c 2 t

/-- THE ACCUMULATION. The accumulator after the body at position `n`: this point's product added onto zero where the
    chunk index is 0, onto what the point before left elsewhere. -/
def accAt (c : Dev nD) : (n : ℕ) → n < cfg1.N → Vec F S1024x1024 .f32
  | 0, hn => k1_pay2 (xblk V c ⟨0, hn⟩) (wblk V c ⟨0, hn⟩) (k1_pay1 (F := F))
  | n + 1, hn =>
    if (n + 1) % 4 = 0 then k1_pay2 (xblk V c ⟨n + 1, hn⟩) (wblk V c ⟨n + 1, hn⟩) (k1_pay1 (F := F))
    else k1_pay2 (xblk V c ⟨n + 1, hn⟩) (wblk V c ⟨n + 1, hn⟩) (accAt c n (Nat.lt_of_succ_lt hn))

/-- At a point of chunk 0 the accumulator restarts from zero. -/
theorem accAt_reset (c : Dev nD) (t : Fin cfg1.N) (h0 : t.val % 4 = 0) :
    accAt V c t.val t.isLt = k1_pay2 (xblk V c t) (wblk V c t) (k1_pay1 (F := F)) := by
  obtain ⟨n, hn⟩ := t
  cases n with
  | zero => rfl
  | succ n => exact if_pos h0

/-- At any other point it continues from what the point before left. -/
theorem accAt_step (c : Dev nD) (t : Fin cfg1.N) (h0 : ¬t.val % 4 = 0) :
    accAt V c t.val t.isLt = k1_pay2 (xblk V c t) (wblk V c t) (accAt V c (t.val - 1) (Nat.lt_of_le_of_lt (Nat.sub_le _ _) t.isLt)) := by
  obtain ⟨n, hn⟩ := t
  cases n with
  | zero => exact absurd (Nat.zero_mod _) h0
  | succ n => exact if_neg h0

/-- The core's scoped buffers that the second launch does not stage: the first launch's eight staging buffers, each at
    some contents, and the accumulator scratch at `S`. -/
def scopedWith (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ S)

/-- The class invariant with the accumulator scratch as a memref owned at some contents. -/
theorem PhiA1_eq (c : Dev nD) :
    (Pipeline.ΦA spec1 c : sProp 𝕄)
      = iprop(scopedWith c (iprop(∃ d, owns (c : Thread nD τ) scM fullShare d)) ∗ (∃ r, prngReg c r)) := by
  unfold Pipeline.ΦA scopedWith; rw [scopedRest1_eq]; simp only [scM, owns_whole]; try rfl

/-- The launch's invariant before position `n`: before the first point the class's (the scratch at anything);
    afterwards the accumulator scratch at what the point before left in it. -/
def PhiS (c : Dev nD) : (n : ℕ) → n ≤ cfg1.N → sProp 𝕄
  | 0, _ => Pipeline.ΦA spec1 c
  | n + 1, hn => iprop(scopedWith c (owns (c : Thread nD τ) scM fullShare (accAt V c n hn)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(scopedWith c (owns (c : Thread nD τ) scM fullShare (accAt V c n hn)) ∗ (∃ r, prngReg c r)) := rfl

theorem PhiS_pos (c : Dev nD) (n : ℕ) (h : n ≤ cfg1.N) (hz : n ≠ 0) :
    PhiS V c n h = iprop(scopedWith c (owns (c : Thread nD τ) scM fullShare (accAt V c (n - 1) (by omega))) ∗ (∃ r, prngReg c r)) := by
  cases n with
  | zero => exact absurd rfl hz
  | succ n => rfl

/-! ## The proof data -/

/-- The second launch's proof data on core `c`: the arrays as found; after the body each input's buffer at its block,
    the output tile's at the accumulator plus the bias row (it is written back only after chunk 3); the invariant
    `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (accAt V c t.val t.isLt) (bblk V c t)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay3 (accAt V c t.val t.isLt) (bblk V c t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- The input windows are never idle; the output tile is idle, and not written back, except after chunk 3. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem idleAt1_3 : ∀ t : Fin cfg1.N, cfg1.idle 3 (grid1.coords t) = true ↔ ¬t.val % 4 = 3 :=
  (by decide +kernel : ∀ t : Fin grid1.N, idle1 3 (grid1.coords t) = true ↔ ¬t.val % 4 = 3)
theorem liveAt1_3 (t : Fin cfg1.N) (h : t.val % 4 = 3) : cfg1.idle 3 (grid1.coords t) = false := by
  cases hi : cfg1.idle 3 (grid1.coords t) with
  | false => rfl
  | true => exact absurd h ((idleAt1_3 t).mp hi)
theorem noFlush1_3 (t : Fin cfg1.N) (h : ¬t.val % 4 = 3) : (cfg1.win 3).flush t = false := by
  cases hf : (cfg1.win 3).flush t with
  | false => rfl
  | true => exact absurd ((flush1_3 t).mp hf) h

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4000000 in
/-- The body at any point: the inputs' buffers hold their blocks; the point's chunk index says which case runs; the
    invariant hands the body the accumulator at what the point before left (at anything at the very first point) and
    takes it back at this point's contents; the output tile's buffer is handed back untouched except after chunk 3. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (st1_0 t) fullShare ((dat1 V c).after 0 t) from by
      unfold Dat.leavesExact; rw [liveAt1_0 t], after1_0,
    show (dat1 V c).leavesExact 1 t = owns (c : Thread nD τ) (st1_1 t) fullShare ((dat1 V c).after 1 t) from by
      unfold Dat.leavesExact; rw [liveAt1_1 t], after1_1,
    show (dat1 V c).leavesExact 2 t = owns (c : Thread nD τ) (st1_2 t) fullShare ((dat1 V c).after 2 t) from by
      unfold Dat.leavesExact; rw [liveAt1_2 t], after1_2]
  have hN : t.val < 256 := lt_of_lt_of_eq t.isLt (show cfg1.N = 256 from N_1)
  by_cases h0 : t.val % 4 = 0
  · have h1 : ¬t.val % 4 = 3 := by omega
    rw [Dat.leavesExact_idle (dat1 V c) 3 t ((idleAt1_3 t).mpr h1) (noFlush1_3 t h1)]
    rw [accAt_reset V c t h0]
    by_cases hz : t.val = 0
    · rw [PhiS_castSucc V c t, PhiS_zero V c _ _ hz, PhiA1_eq]
      unfold scopedWith
      iintro ⟨⟨⟨A1, A2, A3, A4, A5, A6, A7, A8, HS⟩, Hg⟩, Ho, ⟨%d0, H0⟩, ⟨%d1, H1⟩, ⟨%d2, H2⟩, ⟨%d3, H3⟩⟩
      iapply (sound_kernel1_A c Set.univ (grid1.coords t) _ _ _ _ _ _ _ _ _ _ ((hcond1_0 t).mpr h0) (fun h => h1 ((hcond1_1 t).mp h)) (xblk V c t) (wblk V c t) _)
      isplitl [H0]; · iexact H0
      isplitl [H1]; · iexact H1
      isplitl [HS]; · iexact HS
      iintro ⟨H0, H1, HS⟩
      isplitl [A1 A2 A3 A4 A5 A6 A7 A8 HS Hg]
      · isplitr [Hg]
        · isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          iexact HS
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      unfold scopedWith
      iintro ⟨⟨⟨A1, A2, A3, A4, A5, A6, A7, A8, HS⟩, Hg⟩, Ho, ⟨%d0, H0⟩, ⟨%d1, H1⟩, ⟨%d2, H2⟩, ⟨%d3, H3⟩⟩
      iapply (sound_kernel1_A c Set.univ (grid1.coords t) _ _ _ _ _ _ _ _ _ _ ((hcond1_0 t).mpr h0) (fun h => h1 ((hcond1_1 t).mp h)) (xblk V c t) (wblk V c t) _)
      isplitl [H0]; · iexact H0
      isplitl [H1]; · iexact H1
      isplitl [HS]; · iexists _; iexact HS
      iintro ⟨H0, H1, HS⟩
      isplitl [A1 A2 A3 A4 A5 A6 A7 A8 HS Hg]
      · isplitr [Hg]
        · isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          iexact HS
        iexact Hg
      isplitl [Ho]; · iexact Ho
      isplitl [H0]; · iexact H0
      isplitl [H1]; · iexact H1
      isplitl [H2]; · iexact H2
      iexists _; iexact H3
  · have hz : t.val ≠ 0 := fun h => h0 (by rw [h])
    rw [accAt_step V c t h0, PhiS_castSucc V c t, PhiS_pos V c _ _ hz]
    unfold scopedWith
    by_cases h1 : t.val % 4 = 3
    · rw [show (dat1 V c).leavesExact 3 t = owns (c : Thread nD τ) (st1_3 t) fullShare ((dat1 V c).after 3 t) from by
        unfold Dat.leavesExact; rw [liveAt1_3 t h1], after1_3, accAt_step V c t h0]
      iintro ⟨⟨⟨A1, A2, A3, A4, A5, A6, A7, A8, HS⟩, Hg⟩, Ho, ⟨%d0, H0⟩, ⟨%d1, H1⟩, ⟨%d2, H2⟩, ⟨%d3, H3⟩⟩
      iapply (sound_kernel1_C c Set.univ (grid1.coords t) _ _ _ _ _ _ _ _ _ _ (fun h => h0 ((hcond1_0 t).mp h)) ((hcond1_1 t).mpr h1) (xblk V c t) (wblk V c t) (bblk V c t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [A1 A2 A3 A4 A5 A6 A7 A8 HS Hg]
      · isplitr [Hg]
        · isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          iexact HS
        iexact Hg
      isplitl [Ho]; · iexact Ho
      isplitl [H0]; · iexact H0
      isplitl [H1]; · iexact H1
      isplitl [H2]; · iexact H2
      iexact H3
    · rw [Dat.leavesExact_idle (dat1 V c) 3 t ((idleAt1_3 t).mpr h1) (noFlush1_3 t h1)]
      iintro ⟨⟨⟨A1, A2, A3, A4, A5, A6, A7, A8, HS⟩, Hg⟩, Ho, ⟨%d0, H0⟩, ⟨%d1, H1⟩, ⟨%d2, H2⟩, ⟨%d3, H3⟩⟩
      iapply (sound_kernel1_B c Set.univ (grid1.coords t) _ _ _ _ _ _ _ _ _ _ (fun h => h0 ((hcond1_0 t).mp h)) (fun h => h1 ((hcond1_1 t).mp h)) (xblk V c t) (wblk V c t) _ _)
      isplitl [H0]; · iexact H0
      isplitl [H1]; · iexact H1
      isplitl [HS]; · iexact HS
      iintro ⟨H0, H1, HS⟩
      isplitl [A1 A2 A3 A4 A5 A6 A7 A8 HS Hg]
      · isplitr [Hg]
        · isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          iexact HS
        iexact Hg
      isplitl [Ho]; · iexact Ho
      isplitl [H0]; · iexact H0
      isplitl [H1]; · iexact H1
      isplitl [H2]; · iexact H2
      iexists _; iexact H3

/-- The body obligation of the second launch, at every point. -/
theorem body_obligation1 (c : Dev nD) : BodyObligation (dat1 (F := F) V c) (defs₀ (F := F)) Variants.none () Set.univ := fun t => by
  rw [bigSep_W1, bigSep_W1]
  exact sound_body1 V c t

/-- What the launch hands the region (the class invariant) is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class invariant back: the accumulator's contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 256 := N_1; omega), PhiA1_eq]
  unfold scopedWith
  iintro ⟨⟨A1, A2, A3, A4, A5, A6, A7, A8, HS⟩, Hg⟩
  isplitr [Hg]
  · isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    iexists _; iexact HS
  iexact Hg

end Region1

end Cert.KernelIdeal.Hand

end
-- ==== Proof.Spec.lean ====
/-
  The mathematics of the low-rank-adapted linear layer, over the extended reals, with no program in sight.

  The arrays are functions of their index types: an activation `x` of shape [4, 4096, 4096] (batch, position,
  input feature), a weight `W` [4096, 4096], a bias `b` [4096], and the adapter's two factors `A` [4096, 16]
  and `B` [16, 4096]; `two` is the adapter's scale.

  * `refOut` is the result as the reference spells it: the base product plus the bias, plus the scaled product
    through the rank-16 bottleneck, `(x·W + b) + ((x·A)·B)·two`.
  * `weff` is the merged weight `W + two·(A·B)`.
  * `kerOut` is the result as the kernel accumulates it: the 4096 input features cut into four chunks of 1024, the
    partial products `x·weff` of the chunks added one after the other onto zero, and the bias added last.
-/
import Idealize.ShloMosaic.Lib.ValueIdx
import Idealize.ShloMosaic.PureOps.Ideal

noncomputable section

namespace Cert.Spec

open Idealize.ShloMosaic Idealize.ShloMosaic.ValueIdx

abbrev SX : Shape := ⟨3, ![4, 4096, 4096]⟩
abbrev SW : Shape := ⟨2, ![4096, 4096]⟩
abbrev Sb : Shape := ⟨1, ![4096]⟩
abbrev SA : Shape := ⟨2, ![4096, 16]⟩
abbrev SB : Shape := ⟨2, ![16, 4096]⟩

variable (x : SX.Idx → EReal) (W : SW.Idx → EReal) (b : Sb.Idx → EReal) (A : SA.Idx → EReal) (B : SB.Idx → EReal)
  (two : EReal)

/-- The reference's result at batch `p`, position `s`, output feature `e`. -/
def refOut (p : Fin 4) (s : Fin 4096) (e : Fin 4096) : EReal :=
  ((∑ d : Fin 4096, x (ix3 p s d) * W (ix2 d e)) + b (ix1 e))
    + (∑ r : Fin 16, (∑ d : Fin 4096, x (ix3 p s d) * A (ix2 d r)) * B (ix2 r e)) * two

/-- The merged weight at input feature `d`, output feature `e`. -/
def weff (d : Fin 4096) (e : Fin 4096) : EReal :=
  W (ix2 d e) + two * ∑ r : Fin 16, A (ix2 d r) * B (ix2 r e)

/-- Input feature `1024·k + d` of chunk `k`. -/
def chunkIdx (k : Fin 4) (d : Fin 1024) : Fin 4096 := ⟨1024 * k.val + d.val, by have := k.isLt; have := d.isLt; omega⟩

/-- Chunk `k`'s partial product of `x`'s row with the merged weight's column. -/
def partialDot (p : Fin 4) (s : Fin 4096) (e : Fin 4096) (k : Fin 4) : EReal :=
  ∑ d : Fin 1024, x (ix3 p s (chunkIdx k d)) * weff W A B two (chunkIdx k d) e

/-- The kernel's result: the four partial products added in order onto zero, then the bias. -/
def kerOut (p : Fin 4) (s : Fin 4096) (e : Fin 4096) : EReal :=
  ((((0 + partialDot x W A B two p s e 0) + partialDot x W A B two p s e 1) + partialDot x W A B two p s e 2)
    + partialDot x W A B two p s e 3) + b (ix1 e)

end Cert.Spec

end
-- ==== Proof.Arrays.lean ====
/-
  The kernel's side of the specification, array by array, over the extended reals and with no program in sight:
  what the first launch leaves (the merged weight), what the second launch leaves from a flattened activation
  matrix, a merged weight and a bias row (the four chunk products added in order onto zero, then the bias), and the
  whole result.
-/
import proofs.«144563_j86371792322948_1_alg».proof.Proof.Spec

noncomputable section

namespace Cert.Arrays

open Idealize.ShloMosaic Idealize.ShloMosaic.ValueIdx Cert.Spec

/-- The adapter's scale 2.0, as both programs spell it. -/
abbrev two : EReal := Ideal.ofBits .f32 0x40000000#32

/-- The flattened activations [16384, 4096] and the bias as a row [1, 4096]. -/
abbrev SX2 : Shape := ⟨2, ![16384, 4096]⟩
abbrev Sb2 : Shape := ⟨2, ![1, 4096]⟩

/-- The merged weight `W + two·(A·B)` as an array. -/
def weffArr (W : SW.Idx → EReal) (A : SA.Idx → EReal) (B : SB.Idx → EReal) : SW.Idx → EReal :=
  fun j => weff W A B two (j 0) (j 1)

/-- Chunk `k`'s partial product of row `r` of the flattened activations with column `e` of a weight. -/
def partialDot2 (X : SX2.Idx → EReal) (Wf : SW.Idx → EReal) (r : Fin 16384) (e : Fin 4096) (k : Fin 4) : EReal :=
  ∑ d : Fin 1024, X (ix2 r (chunkIdx k d)) * Wf (ix2 (chunkIdx k d) e)

/-- What the second launch leaves: the four partial products added in order onto zero, then the bias. -/
def outArr (X : SX2.Idx → EReal) (Wf : SW.Idx → EReal) (b2 : Sb2.Idx → EReal) : SX2.Idx → EReal :=
  fun j => ((((0 + partialDot2 X Wf (j 0) (j 1) 0) + partialDot2 X Wf (j 0) (j 1) 1) + partialDot2 X Wf (j 0) (j 1) 2)
    + partialDot2 X Wf (j 0) (j 1) 3) + b2 (ix2 (0 : Fin 1) (j 1))

/-- The kernel's whole result, index by index. -/
def kerArr (x : SX.Idx → EReal) (W : SW.Idx → EReal) (b : Sb.Idx → EReal) (A : SA.Idx → EReal) (B : SB.Idx → EReal) : SX.Idx → EReal :=
  fun i => kerOut x W b A B two (i 0) (i 1) (i 2)

end Cert.Arrays

end
-- ==== Proof.KI.Run.lean ====
/-
  The run of the whole program, at any float instance: the first launch (the merged weight), two reshapes, the second
  launch (the accumulated product plus bias), the closing reshape. The buffers' contents at each boundary are a fold
  from the launch memory: a launch leaves its arrays at what its write-backs leave and every other buffer as it was;
  a reshape writes only its result. Read at the arguments the fold walks back to the launch memory (the frame); read
  at the result it is the reshape of what the second launch's write-backs leave.
-/
import proofs.«144563_j86371792322948_1_alg».proof.Proof.Gen.KernelIdeal.Launch
import proofs.«144563_j86371792322948_1_alg».proof.Proof.Gen.KernelIdeal.Skeleton
import proofs.«144563_j86371792322948_1_alg».proof.Proof.Gen.KernelIdeal.Points
import proofs.«144563_j86371792322948_1_alg».proof.Proof.KI.Region0
import proofs.«144563_j86371792322948_1_alg».proof.Proof.KI.Region1
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of @main: a fold from the launch memory -/

/-- Core `c`'s buffers at launch (the first launch's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At the first launch's exit: its arrays at what its write-backs leave, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the two reshapes between the launches (the second launch's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- At the second launch's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- After the closing reshape (the return). -/
abbrev W4 : Dev nD → Valuation τ sig (Elt F) := fun c => StableHlo.after hostOps2 (W3 m ρ c)

/-! ## The proof data family and the thread state -/

abbrev adm : (p : Fin 2) → (pcfgs (F := F) p).Adm := fun p => (cfgs p).toPCfg_adm
/-- Each launch's proof data at its entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents. -/
abbrev Tₙ (c : Dev nD) : sProp 𝕄 := iprop(StableHlo.held (c : Thread nD τ) (Pipeline.ucRefs τ sig) (W4 m ρ c) ∗ ∃ r, prngReg c r)

/-! ## The launches as segments -/

set_option backward.isDefEq.respectTransparency.types false in
/-- The first launch over the thread state: entered from every unscoped buffer at `W0`, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second launch over the thread state: entered from every unscoped buffer at `W2`, left at `W3`. Its invariant
    takes the scoped rest in at the first point and, after the last, gives it back with the accumulator's contents
    forgotten. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

/-- @main's four segments in order: the first launch, the two reshapes, the second launch, the closing reshape. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- THE RUN. From any memory with zero counters every weakly fair execution of @main on the TensorCores terminates,
    nothing faulting, and in every final state each unscoped buffer holds what the fold `W4` says. -/
theorem run_vals : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, Ho⟩
      isplitr [Ho]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-! ## The arguments end as launched, and the result is the second launch's output, reshaped -/

theorem hostOps1_keeps (b : Ref sig .tc) (h1 : b ≠ main_v1) (h2 : b ≠ main_v2) (W : Valuation τ sig (Elt F)) :
    StableHlo.after hostOps1 W (Proc.devRef .tc b) = W (Proc.devRef .tc b) :=
  StableHlo.after_of_forall_not_mem (b := Proc.devRef .tc b) _ _ (List.forall_iff_forall_mem.mp (by
    simp only [hostOps1, List.Forall, StableHlo.reshape_writes, Finset.mem_singleton]
    exact ⟨StableHlo.devRef_ne_of_ne h1, StableHlo.devRef_ne_of_ne h2⟩))
theorem hostOps2_keeps (b : Ref sig .tc) (h1 : b ≠ main_v4) (W : Valuation τ sig (Elt F)) :
    StableHlo.after hostOps2 W (Proc.devRef .tc b) = W (Proc.devRef .tc b) :=
  StableHlo.after_of_forall_not_mem (b := Proc.devRef .tc b) _ _ (List.forall_iff_forall_mem.mp (by
    simp only [hostOps2, List.Forall, StableHlo.reshape_writes, Finset.mem_singleton]
    exact StableHlo.devRef_ne_of_ne h1))

/-- An argument no launch writes and no reshape writes is, at the end, as launched. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := hostOps2_keeps main_arg0 (by decide) _
    _ = W2 m ρ c (Proc.devRef .tc main_arg0) := W3_of_ne m ρ c main_arg0 (by decide)
    _ = W1 m ρ c (Proc.devRef .tc main_arg0) := hostOps1_keeps main_arg0 (by decide) (by decide) _
    _ = W0 m ρ c (Proc.devRef .tc main_arg0) := W1_of_ne m ρ c main_arg0 (by decide)
    _ = m ((c : Thread nD τ).loc main_arg0) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := hostOps2_keeps main_arg2 (by decide) _
    _ = W2 m ρ c (Proc.devRef .tc main_arg2) := W3_of_ne m ρ c main_arg2 (by decide)
    _ = W1 m ρ c (Proc.devRef .tc main_arg2) := hostOps1_keeps main_arg2 (by decide) (by decide) _
    _ = W0 m ρ c (Proc.devRef .tc main_arg2) := W1_of_ne m ρ c main_arg2 (by decide)
    _ = m ((c : Thread nD τ).loc main_arg2) := rfl
/-- An argument the first launch reads through an input window is left as it found it. -/
theorem W1_in (c : Dev nD) (w : Fin cfg0.W) (hw : (cfg0.win w).isOut = false) :
    W1 m ρ c (Proc.devRef .tc (Pipeline.arrRef spec0 w)) = W0 m ρ c (Proc.devRef .tc (Pipeline.arrRef spec0 w)) :=
  (W1_arr m ρ c w).trans (((dat0 (V0 m ρ) c).arrAt_in w hw _).trans (A_eq0 (V0 m ρ) c w))
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := hostOps2_keeps main_arg1 (by decide) _
    _ = W2 m ρ c (Proc.devRef .tc main_arg1) := W3_of_ne m ρ c main_arg1 (by decide)
    _ = W1 m ρ c (Proc.devRef .tc main_arg1) := hostOps1_keeps main_arg1 (by decide) (by decide) _
    _ = W0 m ρ c (Proc.devRef .tc main_arg1) := W1_in m ρ c 0 rfl
    _ = m ((c : Thread nD τ).loc main_arg1) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := hostOps2_keeps main_arg3 (by decide) _
    _ = W2 m ρ c (Proc.devRef .tc main_arg3) := W3_of_ne m ρ c main_arg3 (by decide)
    _ = W1 m ρ c (Proc.devRef .tc main_arg3) := hostOps1_keeps main_arg3 (by decide) (by decide) _
    _ = W0 m ρ c (Proc.devRef .tc main_arg3) := W1_in m ρ c 1 rfl
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := hostOps2_keeps main_arg4 (by decide) _
    _ = W2 m ρ c (Proc.devRef .tc main_arg4) := W3_of_ne m ρ c main_arg4 (by decide)
    _ = W1 m ρ c (Proc.devRef .tc main_arg4) := hostOps1_keeps main_arg4 (by decide) (by decide) _
    _ = W0 m ρ c (Proc.devRef .tc main_arg4) := W1_in m ρ c 2 rfl
    _ = m ((c : Thread nD τ).loc main_arg4) := rfl

/-- THE FRAME: the program runs to the end, faults nowhere, and leaves its five arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_vals m ρ)

end Cert.KernelIdeal.Hand

end
-- ==== Proof.KI.Value0.lean ====
/-
  The first launch's result array, read: the merged weight `W + 2·(A·B)`.

  Grid point `t` of the sixteen is tile (t / 4, t % 4): it reads the 1024 × 1024 tile of `W` there, the 1024 rows
  of `A` of row block t / 4 and the 1024 columns of `B` of column block t % 4, and writes the same tile of the result.
  Entry (p, q) of what it writes is `W`'s tile entry plus twice the sum over the sixteen bottleneck indices of the
  products of `A`'s and `B`'s block entries; placed at row 1024·(t / 4) + p and column 1024·(t % 4) + q that is the
  merged weight's entry there. Every entry (d, e) of the result lies in the tile of point 4·(d / 1024) + e / 1024, so
  after the sixteen write-backs the result is the merged weight.
-/
import proofs.«144563_j86371792322948_1_alg».proof.Proof.KI.Region0
import proofs.«144563_j86371792322948_1_alg».proof.Proof.KI.Region1
import proofs.«144563_j86371792322948_1_alg».proof.Proof.Arrays
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen

namespace Weff

theorem hz : (![0, 0] : Fin 2 → Nat) = fun _ => 0 := funext fun a => by fin_cases a <;> rfl

theorem lhs_mm_0 (i : S1024x1024.Idx) (q : dot_S1024x16_S16x1024_S1024x1024_1_0_0_1_n_n.contr.Idx) :
    (dot_S1024x16_S16x1024_S1024x1024_1_0_0_1_n_n.lhsIdx i q 0).val = (i 0).val := by
  unfold DotDims.lhsIdx
  rw [dif_neg (show ¬(0 : Fin S1024x16.rank) ∈ dot_S1024x16_S16x1024_S1024x1024_1_0_0_1_n_n.lhsBatch by decide), dif_pos (show (0 : Fin S1024x16.rank) ∈ dot_S1024x16_S16x1024_S1024x1024_1_0_0_1_n_n.lhsNonContracting by decide)]
  rfl
theorem lhs_mm_1 (i : S1024x1024.Idx) (q : dot_S1024x16_S16x1024_S1024x1024_1_0_0_1_n_n.contr.Idx) :
    (dot_S1024x16_S16x1024_S1024x1024_1_0_0_1_n_n.lhsIdx i q 1).val = (q ⟨0, by decide⟩).val :=
  dot_S1024x16_S16x1024_S1024x1024_1_0_0_1_n_n.lhsIdx_val_of_single rfl i q
theorem rhs_mm_0 (i : S1024x1024.Idx) (q : dot_S1024x16_S16x1024_S1024x1024_1_0_0_1_n_n.contr.Idx) :
    (dot_S1024x16_S16x1024_S1024x1024_1_0_0_1_n_n.rhsIdx i q 0).val = (q ⟨0, by decide⟩).val :=
  dot_S1024x16_S16x1024_S1024x1024_1_0_0_1_n_n.rhsIdx_val_of_single rfl i q
theorem rhs_mm_1 (i : S1024x1024.Idx) (q : dot_S1024x16_S16x1024_S1024x1024_1_0_0_1_n_n.contr.Idx) :
    (dot_S1024x16_S16x1024_S1024x1024_1_0_0_1_n_n.rhsIdx i q 1).val = (i 1).val := by
  unfold DotDims.rhsIdx
  rw [dif_neg (show ¬(1 : Fin S16x1024.rank) ∈ dot_S1024x16_S16x1024_S1024x1024_1_0_0_1_n_n.rhsBatch by decide), dif_pos (show (1 : Fin S16x1024.rank) ∈ dot_S1024x16_S16x1024_S1024x1024_1_0_0_1_n_n.rhsNonContracting by decide)]
  rfl

/-- The product of a 1024 × 16 block with a 16 × 1024 block, accumulated onto zero, entry by entry. -/
theorem mm_apply (l : FVec Ideal S1024x16 .bf16) (r : FVec Ideal S16x1024 .bf16) (p q : Fin 1024) :
    matmul dot_S1024x16_S16x1024_S1024x1024_1_0_0_1_n_n none l r (constant (F := Ideal) S1024x1024 .f32 0x00000000#32) (ix2 p q)
      = ∑ k : Fin 16, l (ix2 p k) * r (ix2 k q) := by
  show FloatOps.matmul dot_S1024x16_S16x1024_S1024x1024_1_0_0_1_n_n none l r (constant (F := Ideal) S1024x1024 .f32 0x00000000#32) (ix2 p q) = _
  rw [Ideal.matmul_constant_zero_apply, ← Equiv.sum_comp (ValueIdx.contrEquiv1 dot_S1024x16_S16x1024_S1024x1024_1_0_0_1_n_n 16 rfl rfl).symm]
  refine Finset.sum_congr rfl fun k _ => ?_
  have hk := ValueIdx.contrEquiv1_symm_val dot_S1024x16_S16x1024_S1024x1024_1_0_0_1_n_n 16 rfl rfl k
  have el : dot_S1024x16_S16x1024_S1024x1024_1_0_0_1_n_n.lhsIdx (ix2 p q) ((ValueIdx.contrEquiv1 dot_S1024x16_S16x1024_S1024x1024_1_0_0_1_n_n 16 rfl rfl).symm k) = ix2 p k := funext fun a => Fin.ext (by
    match a with
    | ⟨0, _⟩ => exact lhs_mm_0 _ _
    | ⟨1, _⟩ => exact (lhs_mm_1 _ _).trans hk)
  have er : dot_S1024x16_S16x1024_S1024x1024_1_0_0_1_n_n.rhsIdx (ix2 p q) ((ValueIdx.contrEquiv1 dot_S1024x16_S16x1024_S1024x1024_1_0_0_1_n_n 16 rfl rfl).symm k) = ix2 k q := funext fun a => Fin.ext (by
    match a with
    | ⟨0, _⟩ => exact (rhs_mm_0 _ _).trans hk
    | ⟨1, _⟩ => exact rhs_mm_1 _ _)
  rw [el, er]

/-- The body's stored value, entry by entry: the tile of the weight plus twice the product of the two adapter blocks. -/
theorem pay_apply (x0 : Vec Ideal S1024x1024 .f32) (x1 : Vec Ideal S1024x16 .f32) (x2 : Vec Ideal S16x1024 .f32) (p q : Fin 1024) :
    k0_pay1 (F := Ideal) x0 x1 x2 (ix2 p q)
      = x0 (ix2 p q) + Cert.Arrays.two * ∑ k : Fin 16, x1 (ix2 p k) * x2 (ix2 k q) := by
  unfold k0_pay1
  refine (addf_apply _ _ _).trans ?_
  refine congrArg (x0 (ix2 p q) + ·) ?_
  refine (mulf_apply _ _ _).trans ?_
  refine congrArg (Cert.Arrays.two * ·) ?_
  exact mm_apply _ _ p q

variable (V : (c : Dev nD) → (b : Ref sig .tc) → Buf (Elt Ideal) ((c : Thread nD τ).loc b))

/-- The tile's entry (p, q) is the merged weight's entry (d, e), once each block's entries are the arrays' entries
    at the tile's place. -/
theorem tile_value (x0 : Vec Ideal S1024x1024 .f32) (x1 : Vec Ideal S1024x16 .f32) (x2 : Vec Ideal S16x1024 .f32)
    (W : Cert.Spec.SW.Idx → EReal) (A : Cert.Spec.SA.Idx → EReal) (B : Cert.Spec.SB.Idx → EReal)
    (p q : Fin 1024) (d e : Fin 4096)
    (h0 : x0 (ix2 p q) = W (ix2 d e))
    (h1 : ∀ k : Fin 16, x1 (ix2 p k) = A (ix2 d k))
    (h2 : ∀ k : Fin 16, x2 (ix2 k q) = B (ix2 k e)) :
    k0_pay1 (F := Ideal) x0 x1 x2 (ix2 p q) = Cert.Spec.weff W A B Cert.Arrays.two d e := by
  rw [pay_apply, h0]
  unfold Cert.Spec.weff
  refine congrArg (fun s => W (ix2 d e) + Cert.Arrays.two * s) ?_
  exact Finset.sum_congr rfl fun k _ => by rw [h1 k, h2 k]

/-- The index maps over the sixteen points: point `t` is tile (t / 4, t % 4); the weight and the result are cut
    there, the first factor at row block t / 4, the second at column block t % 4. -/
theorem idx_facts0 : ∀ t : Fin cfg0.N,
    win0_0.index t (0 : Fin 2) = t.val / 4 ∧ win0_0.index t (1 : Fin 2) = t.val % 4
    ∧ win0_1.index t (0 : Fin 2) = t.val / 4 ∧ win0_1.index t (1 : Fin 2) = 0
    ∧ win0_2.index t (0 : Fin 2) = 0 ∧ win0_2.index t (1 : Fin 2) = t.val % 4
    ∧ win0_3.index t (0 : Fin 2) = t.val / 4 ∧ win0_3.index t (1 : Fin 2) = t.val % 4 :=
  (by decide +kernel : ∀ t : Fin grid0.N, _)

/-- The weight's tile at point `t`, entry (p, q): the weight at row 1024·(t / 4) + p, column 1024·(t % 4) + q. -/
theorem blk0_apply (c : Dev nD) (t : Fin cfg0.N) (p q : Fin 1024) (d e : Fin 4096)
    (hd : d.val = (t.val / 4) * 1024 + p.val) (he : e.val = (t.val % 4) * 1024 + q.val) :
    (iblk0 V c 0 t : Vec Ideal S1024x1024 .f32) (ix2 p q) = (V c main_arg1 : S4096x4096.Idx → EReal) (ix2 d e) := by
  obtain ⟨e0, e1, -⟩ := idx_facts0 t
  unfold iblk0
  rw [View.read_apply]
  show V c main_arg1 _ = V c main_arg1 _
  congr 1
  funext a
  apply Fin.ext
  match a with
  | ⟨0, _⟩ => show win0_0.index t (0 : Fin 2) * 1024 + 1 * p.val = d.val; rw [e0, hd]; omega
  | ⟨1, _⟩ => show win0_0.index t (1 : Fin 2) * 1024 + 1 * q.val = e.val; rw [e1, he]; omega

/-- The first factor's block at point `t`, entry (p, k): the factor at row 1024·(t / 4) + p, column k. -/
theorem blk1_apply (c : Dev nD) (t : Fin cfg0.N) (p : Fin 1024) (k : Fin 16) (d : Fin 4096)
    (hd : d.val = (t.val / 4) * 1024 + p.val) :
    (iblk0 V c 1 t : Vec Ideal S1024x16 .f32) (ix2 p k) = (V c main_arg3 : S4096x16.Idx → EReal) (ix2 d k) := by
  obtain ⟨-, -, e0, e1, -⟩ := idx_facts0 t
  unfold iblk0
  rw [View.read_apply]
  show V c main_arg3 _ = V c main_arg3 _
  congr 1
  funext a
  apply Fin.ext
  match a with
  | ⟨0, _⟩ => show win0_1.index t (0 : Fin 2) * 1024 + 1 * p.val = d.val; rw [e0, hd]; omega
  | ⟨1, _⟩ => show win0_1.index t (1 : Fin 2) * 16 + 1 * k.val = k.val; rw [e1]; omega

/-- The second factor's block at point `t`, entry (k, q): the factor at row k, column 1024·(t % 4) + q. -/
theorem blk2_apply (c : Dev nD) (t : Fin cfg0.N) (k : Fin 16) (q : Fin 1024) (e : Fin 4096)
    (he : e.val = (t.val % 4) * 1024 + q.val) :
    (iblk0 V c 2 t : Vec Ideal S16x1024 .f32) (ix2 k q) = (V c main_arg4 : S16x4096.Idx → EReal) (ix2 k e) := by
  obtain ⟨-, -, -, -, e0, e1, -⟩ := idx_facts0 t
  unfold iblk0
  rw [View.read_apply]
  show V c main_arg4 _ = V c main_arg4 _
  congr 1
  funext a
  apply Fin.ext
  match a with
  | ⟨0, _⟩ => show win0_2.index t (0 : Fin 2) * 16 + 1 * k.val = k.val; rw [e0]; omega
  | ⟨1, _⟩ => show win0_2.index t (1 : Fin 2) * 1024 + 1 * q.val = e.val; rw [e1, he]; omega

/-- Entry `j` of what point `t`'s body leaves is the merged weight at the array index `i` that the result's tile
    at `t` puts `j` on. -/
theorem tile_eq (c : Dev nD) (t : Fin cfg0.N) (j : S1024x1024.Idx) (i : S4096x4096.Idx)
    (hi0 : (i 0).val = win0_3.index t (0 : Fin 2) * 1024 + 1 * (j 0).val)
    (hi1 : (i 1).val = win0_3.index t (1 : Fin 2) * 1024 + 1 * (j 1).val) :
    k0_pay1 (F := Ideal) (iblk0 V c 0 t) (iblk0 V c 1 t) (iblk0 V c 2 t) j
      = Cert.Arrays.weffArr (V c main_arg1) (V c main_arg3) (V c main_arg4) i := by
  obtain ⟨p, q, rfl⟩ : ∃ (p q : Fin 1024), j = ix2 p q := ⟨j 0, j 1, eq_ix2 j⟩
  obtain ⟨d, e, rfl⟩ : ∃ (d e : Fin 4096), i = ix2 d e := ⟨i 0, i 1, eq_ix2 i⟩
  obtain ⟨-, -, -, -, -, -, e0, e1⟩ := idx_facts0 t
  have hd : d.val = (t.val / 4) * 1024 + p.val := by
    have h : d.val = win0_3.index t (0 : Fin 2) * 1024 + 1 * p.val := hi0
    rw [e0] at h; omega
  have he : e.val = (t.val % 4) * 1024 + q.val := by
    have h : e.val = win0_3.index t (1 : Fin 2) * 1024 + 1 * q.val := hi1
    rw [e1] at h; omega
  show k0_pay1 (F := Ideal) (iblk0 V c 0 t) (iblk0 V c 1 t) (iblk0 V c 2 t) (ix2 p q)
    = Cert.Spec.weff (V c main_arg1) (V c main_arg3) (V c main_arg4) Cert.Arrays.two d e
  exact tile_value (iblk0 V c 0 t) (iblk0 V c 1 t) (iblk0 V c 2 t) (V c main_arg1) (V c main_arg3) (V c main_arg4) p q d e
    (blk0_apply V c t p q d e hd he) (fun k => blk1_apply V c t p k d hd) (fun k => blk2_apply V c t k q e he)

/-- What point `t` writes back is the merged weight read through the result's tile at `t`. -/
theorem flushed_eq0 (c : Dev nD) (t : Fin cfg0.N) :
    (dat0 (F := Ideal) V c).flushed 3 t
      = ((cfg0.win 3).blk t).view.read (Elt Ideal) (Cert.Arrays.weffArr (V c main_arg1) (V c main_arg3) (V c main_arg4)) := by
  show (cfg0.win 3).cut (grid0.coords t) ((dat0 V c).after 3 t) = _
  rw [after0_3]
  unfold out0_3
  rw [View.canon_unit_zero hz]
  simp only [View.ld_unit_zero (S := S1024x1024) hz, View.ld_unit_zero (S := S1024x16) hz, View.ld_unit_zero (S := S16x1024) hz]
  funext j
  exact tile_eq V c t j (((cfg0.win 3).blk t).view.emb j) rfl rfl

/-- An index of the result is in point `t`'s tile iff each coordinate is in the tile's range on its axis. -/
theorem mem_blk0 (t : Fin cfg0.N) (i : S4096x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v0).slice (win0_3.rect t)).set ↔ _
  rw [View.set_slice_whole, Rect.mem_set_unit]
  exact Iff.rfl

/-- The sixteen tiles cover the result: entry (d, e) is in the tile of point 4·(d / 1024) + e / 1024. -/
theorem cover0 (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  have hN : cfg0.N = 16 := N_0
  have ht : 4 * ((i 0).val / 1024) + (i 1).val / 1024 < cfg0.N := by omega
  refine ⟨⟨4 * ((i 0).val / 1024) + (i 1).val / 1024, ht⟩, flush0_3 _, ?_⟩
  rw [mem_blk0]
  obtain ⟨-, -, -, -, -, -, e0, e1⟩ := idx_facts0 ⟨4 * ((i 0).val / 1024) + (i 1).val / 1024, ht⟩
  intro a
  match a with
  | ⟨0, _⟩ =>
    show win0_3.index ⟨4 * ((i 0).val / 1024) + (i 1).val / 1024, ht⟩ (0 : Fin 2) * 1024 ≤ (i 0).val
      ∧ (i 0).val < win0_3.index ⟨4 * ((i 0).val / 1024) + (i 1).val / 1024, ht⟩ (0 : Fin 2) * 1024 + 1024
    rw [e0]
    show (4 * ((i 0).val / 1024) + (i 1).val / 1024) / 4 * 1024 ≤ (i 0).val ∧ (i 0).val < (4 * ((i 0).val / 1024) + (i 1).val / 1024) / 4 * 1024 + 1024
    omega
  | ⟨1, _⟩ =>
    show win0_3.index ⟨4 * ((i 0).val / 1024) + (i 1).val / 1024, ht⟩ (1 : Fin 2) * 1024 ≤ (i 1).val
      ∧ (i 1).val < win0_3.index ⟨4 * ((i 0).val / 1024) + (i 1).val / 1024, ht⟩ (1 : Fin 2) * 1024 + 1024
    rw [e1]
    show (4 * ((i 0).val / 1024) + (i 1).val / 1024) % 4 * 1024 ≤ (i 1).val ∧ (i 1).val < (4 * ((i 0).val / 1024) + (i 1).val / 1024) % 4 * 1024 + 1024
    omega

end Weff

variable (V : (c : Dev nD) → (b : Ref sig .tc) → Buf (Elt Ideal) ((c : Thread nD τ).loc b))

/-- What the first launch's write-backs leave in its result array: the merged weight of the arrays it found. -/
theorem final0 (c : Dev nD) :
    (dat0 (F := Ideal) V c).arrAt 3 cfg0.N = Cert.Arrays.weffArr (V c main_arg1) (V c main_arg3) (V c main_arg4) :=
  (dat0 (F := Ideal) V c).arrAt_eq_of_cover 3 (Cert.Arrays.weffArr (V c main_arg1) (V c main_arg3) (V c main_arg4))
    (fun t _ => Weff.flushed_eq0 V c t) Weff.cover0

end Cert.KernelIdeal.Hand

end
-- ==== Proof.KI.Value1.lean ====
/-
  What the second launch leaves in its result array, over the extended reals.

  The launch walks a grid of 16 row tiles × 4 column tiles × 4 chunks of input features, the chunk innermost: point
  `t` is row tile `t / 16`, column tile `t / 4 % 4`, chunk `t % 4`. At each point the body adds, onto an accumulator
  tile, the product of a 1024 × 1024 tile of the flattened activations (row tile, chunk) with a 1024 × 1024 tile of
  the weight (chunk, column tile); the accumulator restarts from zero at chunk 0, and at chunk 3 the accumulator plus
  the bias row's slice is written to the output tile (row tile, column tile).

  Read at one entry: a tile product at row `p`, column `q` is `∑ d, x[p, d] · w[d, q]`; entry `(p, d)` of the
  activations' tile at a point is entry `(1024 · row tile + p, 1024 · chunk + d)` of the array, and likewise for the
  weight and the bias. So after the four points `n, n + 1, n + 2, n + 3` of one output tile the accumulator's entry
  `(p, q)` is `(((0 + P₀) + P₁) + P₂) + P₃` with `P_k` the partial product over chunk `k` of row
  `r = 1024 · row tile + p` of the activations with column `e = 1024 · column tile + q` of the weight, and what is
  written back is that plus `b[e]`: the specification's entry `(r, e)`, with the additions in the same order. Every
  entry `(r, e)` of the result lies in the tile written back at the point `16 · (r / 1024) + 4 · (e / 1024) + 3`, so the
  whole array ends at the specification's.
-/
import proofs.«144563_j86371792322948_1_alg».proof.Proof.KI.Region0
import proofs.«144563_j86371792322948_1_alg».proof.Proof.KI.Region1
import proofs.«144563_j86371792322948_1_alg».proof.Proof.Arrays
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand.Value1

open Idealize.ShloMosaic Idealize.ShloMosaic.TcCoe Idealize.ShloMosaic.ValueIdx
open Idealize.SL.Sem
open Idealize.ShloMosaic.Pipeline (Dat)
open Cert.KernelIdeal Cert.KernelIdeal.Gen

/-! ## The tile product's operand indices -/

/-- In the tile product the first operand is read at the result's row … -/
theorem mm_lhs_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
/-- … and at the summation index as its column; -/
theorem mm_lhs_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
/-- the second operand at the summation index as its row … -/
theorem mm_rhs_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
/-- … and at the result's column. -/
theorem mm_rhs_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The product of two tiles into a zero accumulator, at row `p` and column `q`: the row of the first against the
    column of the second. -/
theorem matmul_at {φ₁ φ₂ : FTy} (x : FVec Ideal S1024x1024 φ₁) (w : FVec Ideal S1024x1024 φ₂) (p q : Fin 1024) :
    FloatOps.matmul dot_S1024x1024_S1024x1024_S1024x1024_1_0_0_1_n_n none x w (constant S1024x1024 .f32 0x00000000#32) (ix2 p q)
      = ∑ d : Fin 1024, x (ix2 p d) * w (ix2 d q) := by
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k := funext fun a => Fin.ext (by
    match a with
    | ⟨0, _⟩ => exact mm_lhs_0 _ _
    | ⟨1, _⟩ => exact (mm_lhs_1 _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q := funext fun a => Fin.ext (by
    match a with
    | ⟨0, _⟩ => exact (mm_rhs_0 _ _).trans hk
    | ⟨1, _⟩ => exact mm_rhs_1 _ _)
  rw [el, er]

/-! ## The body's three values at an index -/

/-- The reset value is zero everywhere. -/
theorem pay1_at (p q : Fin 1024) : (k1_pay1 (F := Ideal)) (ix2 p q) = 0 := by
  unfold k1_pay1
  rw [shapeCast_self]
  exact Ideal.ofBits_zero_f32

/-- One accumulation step at row `p`, column `q`: what was there plus the row of the activations' tile against the
    column of the weight's tile. -/
theorem pay2_at (x w acc : Vec Ideal S1024x1024 .f32) (p q : Fin 1024) :
    k1_pay2 x w acc (ix2 p q) = acc (ix2 p q) + ∑ d : Fin 1024, x (ix2 p d) * w (ix2 d q) := by
  unfold k1_pay2
  rw [shapeCast_self, shapeCast_self, shapeCast_self]
  refine (addf_apply _ _ _).trans ?_
  refine congrArg (acc (ix2 p q) + ·) ?_
  exact matmul_at _ _ p q

/-- The stored output at row `p`, column `q`: the accumulator there plus the bias row's entry `q`. -/
theorem pay3_at (acc : Vec Ideal S1024x1024 .f32) (b : Vec Ideal S1x1024 .f32) (p q : Fin 1024) :
    k1_pay3 acc b (ix2 p q) = acc (ix2 p q) + b (ix2 (0 : Fin 1) q) := by
  unfold k1_pay3
  rw [shapeCast_self]
  refine (addf_apply _ _ _).trans ?_
  refine congrArg (acc (ix2 p q) + ·) ?_
  refine broadcastTo_apply b _ (ix2 p q) (ix2 (0 : Fin 1) q) (fun a => ?_)
  match a with
  | ⟨0, _⟩ => rfl
  | ⟨1, _⟩ => rfl

/-! ## One output tile from its four chunks -/

/-- If four activation tiles are the four chunks of row `r` of the flattened activations (read along row `p` of the
    tiles), four weight tiles the four chunks of column `e` of the weight (read along column `q`), and the bias slice's
    entry `q` the bias row's entry `e`, then four accumulation steps from zero followed by the bias give the
    specification's entry `(r, e)`. -/
theorem tile_at (X : Cert.Arrays.SX2.Idx → EReal) (Wf : Cert.Spec.SW.Idx → EReal) (b2 : Cert.Arrays.Sb2.Idx → EReal)
    (x0 x1 x2 x3 w0 w1 w2 w3 : Vec Ideal S1024x1024 .f32) (bb : Vec Ideal S1x1024 .f32)
    (r : Fin 16384) (e : Fin 4096) (p q : Fin 1024)
    (hx0 : ∀ d : Fin 1024, x0 (ix2 p d) = X (ix2 r (Cert.Spec.chunkIdx 0 d)))
    (hx1 : ∀ d : Fin 1024, x1 (ix2 p d) = X (ix2 r (Cert.Spec.chunkIdx 1 d)))
    (hx2 : ∀ d : Fin 1024, x2 (ix2 p d) = X (ix2 r (Cert.Spec.chunkIdx 2 d)))
    (hx3 : ∀ d : Fin 1024, x3 (ix2 p d) = X (ix2 r (Cert.Spec.chunkIdx 3 d)))
    (hw0 : ∀ d : Fin 1024, w0 (ix2 d q) = Wf (ix2 (Cert.Spec.chunkIdx 0 d) e))
    (hw1 : ∀ d : Fin 1024, w1 (ix2 d q) = Wf (ix2 (Cert.Spec.chunkIdx 1 d) e))
    (hw2 : ∀ d : Fin 1024, w2 (ix2 d q) = Wf (ix2 (Cert.Spec.chunkIdx 2 d) e))
    (hw3 : ∀ d : Fin 1024, w3 (ix2 d q) = Wf (ix2 (Cert.Spec.chunkIdx 3 d) e))
    (hb : bb (ix2 (0 : Fin 1) q) = b2 (ix2 (0 : Fin 1) e)) :
    k1_pay3 (k1_pay2 x3 w3 (k1_pay2 x2 w2 (k1_pay2 x1 w1 (k1_pay2 x0 w0 (k1_pay1 (F := Ideal)))))) bb (ix2 p q)
      = Cert.Arrays.outArr X Wf b2 (ix2 r e) := by
  rw [pay3_at, pay2_at, pay2_at, pay2_at, pay2_at, pay1_at, hb]
  simp only [hx0, hx1, hx2, hx3, hw0, hw1, hw2, hw3]
  rfl

/-! ## Where the blocks sit in their arrays -/

section Blocks
variable (V : (c : Dev nD) → (b : Ref sig .tc) → Buf (Elt Ideal) ((c : Thread nD τ).loc b))

/-- The grid point `t` is (row tile, column tile, chunk) = (t / 16, t / 4 % 4, t % 4): the activations' tile is
    (row tile, chunk), the weight's (chunk, column tile), the bias slice (0, column tile), the output's (row tile,
    column tile). -/
theorem idx_facts1 : ∀ t : Fin cfg1.N,
    win1_0.index t (0 : Fin 2) = t.val / 16 ∧ win1_0.index t (1 : Fin 2) = t.val % 4
    ∧ win1_1.index t (0 : Fin 2) = t.val % 4 ∧ win1_1.index t (1 : Fin 2) = t.val / 4 % 4
    ∧ win1_2.index t (0 : Fin 2) = 0 ∧ win1_2.index t (1 : Fin 2) = t.val / 4 % 4
    ∧ win1_3.index t (0 : Fin 2) = t.val / 16 ∧ win1_3.index t (1 : Fin 2) = t.val / 4 % 4 :=
  (by decide +kernel : ∀ t : Fin grid1.N, _)

/-- An entry of the activations' tile at a point is the flattened activations' entry at tile index × 1024 + the
    coordinate inside, on each axis. -/
theorem xblk_at (c : Dev nD) (t : Fin cfg1.N) (p d : Fin 1024) (r : Fin 16384) (f : Fin 4096)
    (hr : r.val = win1_0.index t (0 : Fin 2) * 1024 + p.val) (hf : f.val = win1_0.index t (1 : Fin 2) * 1024 + d.val) :
    xblk V c t (ix2 p d) = V c main_v1 (ix2 r f) := by
  show V c main_v1 (((cfg1.win 0).blk t).view.emb (ix2 p d)) = V c main_v1 (ix2 r f)
  refine congrArg (V c main_v1) (funext fun a => Fin.ext ?_)
  match a with
  | ⟨0, _⟩ => show win1_0.index t (0 : Fin 2) * 1024 + 1 * p.val = r.val; omega
  | ⟨1, _⟩ => show win1_0.index t (1 : Fin 2) * 1024 + 1 * d.val = f.val; omega

/-- The same for the weight's tile. -/
theorem wblk_at (c : Dev nD) (t : Fin cfg1.N) (d q : Fin 1024) (f e : Fin 4096)
    (hf : f.val = win1_1.index t (0 : Fin 2) * 1024 + d.val) (he : e.val = win1_1.index t (1 : Fin 2) * 1024 + q.val) :
    wblk V c t (ix2 d q) = V c main_v0 (ix2 f e) := by
  show V c main_v0 (((cfg1.win 1).blk t).view.emb (ix2 d q)) = V c main_v0 (ix2 f e)
  refine congrArg (V c main_v0) (funext fun a => Fin.ext ?_)
  match a with
  | ⟨0, _⟩ => show win1_1.index t (0 : Fin 2) * 1024 + 1 * d.val = f.val; omega
  | ⟨1, _⟩ => show win1_1.index t (1 : Fin 2) * 1024 + 1 * q.val = e.val; omega

/-- The same for the bias row's slice. -/
theorem bblk_at (c : Dev nD) (t : Fin cfg1.N) (q : Fin 1024) (e : Fin 4096)
    (h0 : win1_2.index t (0 : Fin 2) = 0) (he : e.val = win1_2.index t (1 : Fin 2) * 1024 + q.val) :
    bblk V c t (ix2 (0 : Fin 1) q) = V c main_v2 (ix2 (0 : Fin 1) e) := by
  show V c main_v2 (((cfg1.win 2).blk t).view.emb (ix2 (0 : Fin 1) q)) = V c main_v2 (ix2 (0 : Fin 1) e)
  refine congrArg (V c main_v2) (funext fun a => Fin.ext ?_)
  match a with
  | ⟨0, _⟩ => show win1_2.index t (0 : Fin 2) * 1 + 1 * 0 = 0; omega
  | ⟨1, _⟩ => show win1_2.index t (1 : Fin 2) * 1024 + 1 * q.val = e.val; omega

/-! ## The accumulator after a chunk-3 point -/

/-- Away from chunk 0 the accumulator continues from the point before. -/
theorem accAt_succ_of_ne (c : Dev nD) (n : ℕ) (hn : n + 1 < cfg1.N) (h0 : ¬(n + 1) % 4 = 0) :
    accAt V c (n + 1) hn = k1_pay2 (xblk V c ⟨n + 1, hn⟩) (wblk V c ⟨n + 1, hn⟩) (accAt V c n (Nat.lt_of_succ_lt hn)) :=
  if_neg h0

/-- After the fourth chunk of a tile the accumulator is four steps from zero: over the points `n`, `n + 1`, `n + 2`,
    `n + 3` of that tile. -/
theorem accAt_four (c : Dev nD) (n : ℕ) (h : n + 3 < cfg1.N) (h0 : n % 4 = 0) :
    accAt V c (n + 3) h
      = k1_pay2 (xblk V c ⟨n + 3, h⟩) (wblk V c ⟨n + 3, h⟩)
          (k1_pay2 (xblk V c ⟨n + 2, by omega⟩) (wblk V c ⟨n + 2, by omega⟩)
            (k1_pay2 (xblk V c ⟨n + 1, by omega⟩) (wblk V c ⟨n + 1, by omega⟩)
              (k1_pay2 (xblk V c ⟨n, by omega⟩) (wblk V c ⟨n, by omega⟩) (k1_pay1 (F := Ideal))))) :=
  (accAt_succ_of_ne V c (n + 2) h (by omega)).trans (congrArg (k1_pay2 _ _)
    ((accAt_succ_of_ne V c (n + 1) (by omega) (by omega)).trans (congrArg (k1_pay2 _ _)
      ((accAt_succ_of_ne V c n (by omega) (by omega)).trans (congrArg (k1_pay2 _ _)
        (accAt_reset V c ⟨n, by omega⟩ h0))))))

end Blocks

/-! ## What a chunk-3 point writes back, and the whole array -/

section Final
variable (V : (c : Dev nD) → (b : Ref sig .tc) → Buf (Elt Ideal) ((c : Thread nD τ).loc b))

/-- What a point that writes back (a chunk-3 point) writes is its tile of the specification's array: the accumulator
    there is four steps from zero over the tile's four points, whose blocks are the four chunks of the tile's rows
    of the activations and of the tile's columns of the weight. -/
theorem flushed_eq1 (c : Dev nD) (t : Fin cfg1.N) (hf : (cfg1.win 3).flush t = true) :
    (dat1 (F := Ideal) V c).flushed 3 t
      = ((cfg1.win 3).blk t).view.read (Elt Ideal) (Cert.Arrays.outArr (V c main_v1) (V c main_v0) (V c main_v2)) := by
  have h3 : t.val % 4 = 3 := (flush1_3 t).mp hf
  have hN : t.val < 256 := lt_of_lt_of_eq t.isLt (show cfg1.N = 256 from N_1)
  obtain ⟨n, hn⟩ : ∃ n, t.val = n + 3 := ⟨t.val - 3, by omega⟩
  have hlt : n + 3 < cfg1.N := hn ▸ t.isLt
  obtain rfl : t = ⟨n + 3, hlt⟩ := Fin.ext hn
  have hn0 : n % 4 = 0 := by have : (n + 3) % 4 = 3 := h3; omega
  have hn256 : n + 3 < 256 := hN
  show (cfg1.win 3).cut (grid1.coords ⟨n + 3, hlt⟩) ((dat1 V c).after 3 ⟨n + 3, hlt⟩) = _
  rw [after1_3]
  funext y
  obtain ⟨p, q, rfl⟩ : ∃ (p q : Fin 1024), y = ix2 p q := ⟨y 0, y 1, @eq_ix2 1024 1024 y⟩
  have hy : (cfg1.win 3).xinj (grid1.coords ⟨n + 3, hlt⟩) (ix2 p q) = ix2 p q :=
    funext fun a => by match a with | ⟨0, _⟩ => rfl | ⟨1, _⟩ => rfl
  obtain ⟨a0, a1, -, -, -, -, o0, o1⟩ := idx_facts1 ⟨n + 3, hlt⟩
  obtain ⟨b0, b1, w0, w1, -, -, -, -⟩ := idx_facts1 ⟨n + 2, by omega⟩
  obtain ⟨c0, c1, v0, v1, -, -, -, -⟩ := idx_facts1 ⟨n + 1, by omega⟩
  obtain ⟨d0, d1, u0, u1, -, -, -, -⟩ := idx_facts1 ⟨n, by omega⟩
  obtain ⟨-, -, z0, z1, s0, s1, -, -⟩ := idx_facts1 ⟨n + 3, hlt⟩
  have hp : p.val < 1024 := p.isLt
  have hq : q.val < 1024 := q.isLt
  -- the entry of the array the tile's entry `(p, q)` is written to
  have hemb : ((cfg1.win 3).blk ⟨n + 3, hlt⟩).view.emb (ix2 p q)
      = ix2 (⟨(n + 3) / 16 * 1024 + p.val, by omega⟩ : Fin 16384) (⟨(n + 3) / 4 % 4 * 1024 + q.val, by omega⟩ : Fin 4096) :=
    funext fun a => Fin.ext (by
      match a with
      | ⟨0, _⟩ => show win1_3.index ⟨n + 3, hlt⟩ (0 : Fin 2) * 1024 + 1 * p.val = (n + 3) / 16 * 1024 + p.val; rw [o0]; omega
      | ⟨1, _⟩ => show win1_3.index ⟨n + 3, hlt⟩ (1 : Fin 2) * 1024 + 1 * q.val = (n + 3) / 4 % 4 * 1024 + q.val; rw [o1]; omega)
  show k1_pay3 (accAt V c (n + 3) hlt) (bblk V c ⟨n + 3, hlt⟩) ((cfg1.win 3).xinj (grid1.coords ⟨n + 3, hlt⟩) (ix2 p q))
    = Cert.Arrays.outArr (V c main_v1) (V c main_v0) (V c main_v2) (((cfg1.win 3).blk ⟨n + 3, hlt⟩).view.emb (ix2 p q))
  rw [hy, hemb, accAt_four V c n hlt hn0]
  refine tile_at (V c main_v1) (V c main_v0) (V c main_v2) _ _ _ _ _ _ _ _ _ _ _ p q ?_ ?_ ?_ ?_ ?_ ?_ ?_ ?_ ?_
  · intro d
    have hd : d.val < 1024 := d.isLt
    exact xblk_at V c ⟨n, by omega⟩ p d _ _ (by show (n + 3) / 16 * 1024 + p.val = _; rw [d0]; show _ = n / 16 * 1024 + p.val; omega)
      (by show 1024 * 0 + d.val = _; rw [d1]; show _ = n % 4 * 1024 + d.val; omega)
  · intro d
    have hd : d.val < 1024 := d.isLt
    exact xblk_at V c ⟨n + 1, by omega⟩ p d _ _ (by show (n + 3) / 16 * 1024 + p.val = _; rw [c0]; show _ = (n + 1) / 16 * 1024 + p.val; omega)
      (by show 1024 * 1 + d.val = _; rw [c1]; show _ = (n + 1) % 4 * 1024 + d.val; omega)
  · intro d
    have hd : d.val < 1024 := d.isLt
    exact xblk_at V c ⟨n + 2, by omega⟩ p d _ _ (by show (n + 3) / 16 * 1024 + p.val = _; rw [b0]; show _ = (n + 2) / 16 * 1024 + p.val; omega)
      (by show 1024 * 2 + d.val = _; rw [b1]; show _ = (n + 2) % 4 * 1024 + d.val; omega)
  · intro d
    have hd : d.val < 1024 := d.isLt
    exact xblk_at V c ⟨n + 3, hlt⟩ p d _ _ (by show (n + 3) / 16 * 1024 + p.val = _; rw [a0])
      (by show 1024 * 3 + d.val = _; rw [a1]; show _ = (n + 3) % 4 * 1024 + d.val; omega)
  · intro d
    have hd : d.val < 1024 := d.isLt
    exact wblk_at V c ⟨n, by omega⟩ d q _ _ (by show 1024 * 0 + d.val = _; rw [u0]; show _ = n % 4 * 1024 + d.val; omega)
      (by show (n + 3) / 4 % 4 * 1024 + q.val = _; rw [u1]; show _ = n / 4 % 4 * 1024 + q.val; omega)
  · intro d
    have hd : d.val < 1024 := d.isLt
    exact wblk_at V c ⟨n + 1, by omega⟩ d q _ _ (by show 1024 * 1 + d.val = _; rw [v0]; show _ = (n + 1) % 4 * 1024 + d.val; omega)
      (by show (n + 3) / 4 % 4 * 1024 + q.val = _; rw [v1]; show _ = (n + 1) / 4 % 4 * 1024 + q.val; omega)
  · intro d
    have hd : d.val < 1024 := d.isLt
    exact wblk_at V c ⟨n + 2, by omega⟩ d q _ _ (by show 1024 * 2 + d.val = _; rw [w0]; show _ = (n + 2) % 4 * 1024 + d.val; omega)
      (by show (n + 3) / 4 % 4 * 1024 + q.val = _; rw [w1]; show _ = (n + 2) / 4 % 4 * 1024 + q.val; omega)
  · intro d
    have hd : d.val < 1024 := d.isLt
    exact wblk_at V c ⟨n + 3, hlt⟩ d q _ _ (by show 1024 * 3 + d.val = _; rw [z0]; show _ = (n + 3) % 4 * 1024 + d.val; omega)
      (by show (n + 3) / 4 % 4 * 1024 + q.val = _; rw [z1])
  · exact bblk_at V c ⟨n + 3, hlt⟩ q _ s0 (by show (n + 3) / 4 % 4 * 1024 + q.val = _; rw [s1])

/-- An entry of the result array is in a point's output tile iff each coordinate is in the tile's range. -/
theorem mem_blk1 (t : Fin cfg1.N) (i : S16384x4096.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v3).slice (win1_3.rect t)).set ↔ _
  rw [View.set_slice_whole, Rect.mem_set_unit]
  exact Iff.rfl

/-- Every entry `(r, e)` of the result array is in the tile written back at the chunk-3 point of row tile `r / 1024`
    and column tile `e / 1024`. -/
theorem cover1 (i : S16384x4096.Idx) :
    ∃ t : Fin cfg1.N, (cfg1.win 3).flush t = true ∧ i ∈ ((cfg1.win 3).blk t).view.set := by
  have hi0 : (i 0).val < 16384 := (i 0).isLt
  have hi1 : (i 1).val < 4096 := (i 1).isLt
  have hN : cfg1.N = 256 := N_1
  have hlt : 16 * ((i 0).val / 1024) + 4 * ((i 1).val / 1024) + 3 < cfg1.N := by rw [hN]; omega
  refine ⟨⟨16 * ((i 0).val / 1024) + 4 * ((i 1).val / 1024) + 3, hlt⟩, (flush1_3 _).mpr (by show (16 * ((i 0).val / 1024) + 4 * ((i 1).val / 1024) + 3) % 4 = 3; omega), ?_⟩
  obtain ⟨-, -, -, -, -, -, o0, o1⟩ := idx_facts1 ⟨16 * ((i 0).val / 1024) + 4 * ((i 1).val / 1024) + 3, hlt⟩
  rw [mem_blk1]
  intro a
  match a with
  | ⟨0, _⟩ =>
    show win1_3.index _ (0 : Fin 2) * 1024 ≤ (i 0).val ∧ (i 0).val < win1_3.index _ (0 : Fin 2) * 1024 + 1024
    rw [o0]
    show (16 * ((i 0).val / 1024) + 4 * ((i 1).val / 1024) + 3) / 16 * 1024 ≤ (i 0).val ∧ (i 0).val < (16 * ((i 0).val / 1024) + 4 * ((i 1).val / 1024) + 3) / 16 * 1024 + 1024
    omega
  | ⟨1, _⟩ =>
    show win1_3.index _ (1 : Fin 2) * 1024 ≤ (i 1).val ∧ (i 1).val < win1_3.index _ (1 : Fin 2) * 1024 + 1024
    rw [o1]
    show (16 * ((i 0).val / 1024) + 4 * ((i 1).val / 1024) + 3) / 4 % 4 * 1024 ≤ (i 1).val ∧ (i 1).val < (16 * ((i 0).val / 1024) + 4 * ((i 1).val / 1024) + 3) / 4 % 4 * 1024 + 1024
    omega

end Final

end Cert.KernelIdeal.Hand.Value1

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- What the second launch's write-backs leave in its result array: the accumulated product of the flattened
    activations with the weight it found, plus the bias row. -/
theorem final1 (c : Dev nD) :
    (dat1 (F := Ideal) V c).arrAt 3 cfg1.N = Cert.Arrays.outArr (V c main_v1) (V c main_v0) (V c main_v2) :=
  (dat1 (F := Ideal) V c).arrAt_eq_of_cover 3 (Cert.Arrays.outArr (V c main_v1) (V c main_v0) (V c main_v2))
    (Value1.flushed_eq1 V c) Value1.cover1

end Cert.KernelIdeal.Hand

end
-- ==== Proof.KI.Value.lean ====
/-
  The result buffer at the end of the run, read back through the fold of the buffers' contents.

  The closing reshape turns the second launch's result [16384, 4096] into [4, 4096, 4096]: entry (p, s, e) is entry
  (4096·p + s, e). The second launch leaves the accumulated product of the flattened activations (entry
  (4096·p + s, d) is `x`'s entry (p, s, d)) with the array the first launch left — the merged weight of `W`, `A`, `B` —
  plus the bias as a row. Substituting, entry (p, s, e) of the result is the four chunk products of row (p, s) of `x`
  with column `e` of the merged weight, added in order onto zero, plus `b`'s entry `e`: the kernel's closed form.
-/
import proofs.«144563_j86371792322948_1_alg».proof.Proof.KI.Region0
import proofs.«144563_j86371792322948_1_alg».proof.Proof.KI.Region1
import proofs.«144563_j86371792322948_1_alg».proof.Proof.Arrays
import proofs.«144563_j86371792322948_1_alg».proof.Proof.KI.Run
import proofs.«144563_j86371792322948_1_alg».proof.Proof.KI.Value0
import proofs.«144563_j86371792322948_1_alg».proof.Proof.KI.Value1
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen

section Pure
variable {α : Type}

/-- The activations flattened to [16384, 4096], read at row `4096·p + s`, are the activations at `(p, s)`. -/
theorem flatten_apply (x : (⟨3, ![4, 4096, 4096]⟩ : Shape).Idx → α)
    (h : (⟨3, ![4, 4096, 4096]⟩ : Shape).ShapeCasts ⟨2, ![16384, 4096]⟩)
    (p : Fin 4) (s : Fin 4096) (d : Fin 4096) (r : Fin 16384) (hr : r.val = 4096 * p.val + s.val) :
    shapeCast ⟨2, ![16384, 4096]⟩ x h (ix2 r d) = x (ix3 p s d) :=
  shapeCast_apply x h _ _ (by
    rw [Shape.rowMajor_val_three, Shape.rowMajor_val_two]
    show (p.val * 4096 + s.val) * 4096 + d.val = r.val * 4096 + d.val
    rw [hr]; omega)

/-- A [16384, 4096] array unflattened to [4, 4096, 4096], read at `(p, s, e)`, is the array at row `4096·p + s`. -/
theorem unflatten_apply (y : (⟨2, ![16384, 4096]⟩ : Shape).Idx → α)
    (h : (⟨2, ![16384, 4096]⟩ : Shape).ShapeCasts ⟨3, ![4, 4096, 4096]⟩)
    (p : Fin 4) (s : Fin 4096) (e : Fin 4096) (r : Fin 16384) (hr : r.val = 4096 * p.val + s.val) :
    shapeCast ⟨3, ![4, 4096, 4096]⟩ y h (ix3 p s e) = y (ix2 r e) :=
  shapeCast_apply y h _ _ (by
    rw [Shape.rowMajor_val_three, Shape.rowMajor_val_two]
    show r.val * 4096 + e.val = (p.val * 4096 + s.val) * 4096 + e.val
    rw [hr]; omega)

end Pure

open Cert.Spec Cert.Arrays

/-- The second launch's result over the flattened activations, the merged weight and the bias row, unflattened, is the
    kernel's whole result: row `4096·p + s` of the flattened activations is row `(p, s)`, the merged weight array is the
    merged weight entry by entry, and the bias row at column `e` is the bias at `e`, so the four partial products and
    the bias agree term by term. -/
theorem unflatten_outArr (x : SX.Idx → EReal) (W : SW.Idx → EReal) (b : Sb.Idx → EReal) (A : SA.Idx → EReal) (B : SB.Idx → EReal)
    (h1 : SX.ShapeCasts SX2) (h2 : Sb.ShapeCasts Sb2) (h3 : SX2.ShapeCasts SX) :
    shapeCast SX (outArr (shapeCast SX2 x h1) (weffArr W A B) (shapeCast Sb2 b h2)) h3 = kerArr x W b A B := by
  funext i
  obtain ⟨p, s, e, rfl⟩ : ∃ (p : Fin 4) (s : Fin 4096) (e : Fin 4096), i = ix3 p s e := ⟨i 0, i 1, i 2, eq_ix3 i⟩
  have hlt : 4096 * p.val + s.val < 16384 := by have := p.isLt; have := s.isLt; omega
  rw [unflatten_apply _ h3 p s e ⟨4096 * p.val + s.val, hlt⟩ rfl]
  have hpd : ∀ k : Fin 4, partialDot2 (shapeCast SX2 x h1) (weffArr W A B) ⟨4096 * p.val + s.val, hlt⟩ e k
      = partialDot x W A B two p s e k := fun k =>
    Finset.sum_congr rfl fun d _ => by
      rw [flatten_apply x h1 p s (chunkIdx k d) ⟨4096 * p.val + s.val, hlt⟩ rfl]
      rfl
  show ((((0 + partialDot2 (shapeCast SX2 x h1) (weffArr W A B) ⟨4096 * p.val + s.val, hlt⟩ e 0)
        + partialDot2 (shapeCast SX2 x h1) (weffArr W A B) ⟨4096 * p.val + s.val, hlt⟩ e 1)
        + partialDot2 (shapeCast SX2 x h1) (weffArr W A B) ⟨4096 * p.val + s.val, hlt⟩ e 2)
        + partialDot2 (shapeCast SX2 x h1) (weffArr W A B) ⟨4096 * p.val + s.val, hlt⟩ e 3)
        + shapeCast Sb2 b h2 (ix2 (0 : Fin 1) e)
      = ((((0 + partialDot x W A B two p s e 0) + partialDot x W A B two p s e 1) + partialDot x W A B two p s e 2)
        + partialDot x W A B two p s e 3) + b (ix1 e)
  rw [hpd 0, hpd 1, hpd 2, hpd 3, shapeCast_a_1a_apply b h2 (0 : Fin 1) e]

variable (m : (ℓ : Loc nD τ sig) → Buf (Elt Ideal) ℓ) (ρ : Dev nD → PrngReg)

/-! ## The fold read at the second launch's three operands -/

/-- The second launch finds, as its activations, the launch memory's activations flattened: the first reshape's result,
    and the first launch does not write the activations. -/
theorem V2_main_v1 (c : Dev nD) :
    V2 (F := Ideal) m ρ c main_v1
      = shapeCast S16384x4096 (m ((c.tc : Thread nD τ).loc main_arg0)) shapeCasts_S4x4096x4096_S16384x4096 := by
  show StableHlo.after hostOps1 (W1 m ρ c) (Proc.devRef .tc main_v1) = _
  after_results
  rw [W1_of_ne m ρ c main_arg0 (by decide)]
  rfl

/-- It finds, as its bias row, the launch memory's bias as a row: the second reshape's result. -/
theorem V2_main_v2 (c : Dev nD) :
    V2 (F := Ideal) m ρ c main_v2
      = shapeCast S1x4096 (m ((c.tc : Thread nD τ).loc main_arg2)) shapeCasts_S4096_S1x4096 := by
  show StableHlo.after hostOps1 (W1 m ρ c) (Proc.devRef .tc main_v2) = _
  after_results
  rw [W1_of_ne m ρ c main_arg2 (by decide)]
  rfl

/-- It finds, as its weight, what the first launch left: the merged weight of the launch memory's arrays; the reshapes
    between the launches do not write it. -/
theorem V2_main_v0 (c : Dev nD) :
    V2 (F := Ideal) m ρ c main_v0
      = Cert.Arrays.weffArr (m ((c.tc : Thread nD τ).loc main_arg1)) (m ((c.tc : Thread nD τ).loc main_arg3))
          (m ((c.tc : Thread nD τ).loc main_arg4)) :=
  calc V2 (F := Ideal) m ρ c main_v0
    _ = W1 m ρ c (Proc.devRef .tc main_v0) := hostOps1_keeps main_v0 (by decide) (by decide) _
    _ = (dat0 (V0 m ρ) c).arrAt 3 cfg0.N := W1_arr m ρ c 3
    _ = _ := final0 (V0 m ρ) c

/-- What the second launch leaves in its result array, over the launch memory's arguments. -/
theorem W3_main_v3 (c : Dev nD) :
    W3 (F := Ideal) m ρ c (Proc.devRef .tc main_v3)
      = Cert.Arrays.outArr
          (shapeCast S16384x4096 (m ((c.tc : Thread nD τ).loc main_arg0)) shapeCasts_S4x4096x4096_S16384x4096)
          (Cert.Arrays.weffArr (m ((c.tc : Thread nD τ).loc main_arg1)) (m ((c.tc : Thread nD τ).loc main_arg3))
            (m ((c.tc : Thread nD τ).loc main_arg4)))
          (shapeCast S1x4096 (m ((c.tc : Thread nD τ).loc main_arg2)) shapeCasts_S4096_S1x4096) := by
  refine (W3_arr m ρ c 3).trans ?_
  refine (final1 (V2 m ρ) c).trans ?_
  rw [V2_main_v1 m ρ c, V2_main_v0 m ρ c, V2_main_v2 m ρ c]

/-- At the end of the run the result buffer holds the kernel's whole result of the launch memory's arguments. -/
theorem W4_main_v4 (c : Dev nD) :
    W4 (F := Ideal) m ρ c (Proc.devRef .tc main_v4)
      = Cert.Arrays.kerArr (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  show StableHlo.after hostOps2 (W3 m ρ c) (Proc.devRef .tc main_v4) = _
  after_results
  rw [W3_main_v3 m ρ c]
  exact unflatten_outArr _ _ _ _ _ _ _ _

/-- THE VALUE RUN: every weakly fair execution terminates with the result at `kerArr` of the arguments, the arguments
    unchanged. -/
theorem run_value : θ_run (defs (F := Ideal)) (onTc (τ := τ) (main (F := Ideal))) ⟨m, fun _ => 0, ρ⟩ (fun r => ∀ c : Dev nD,
      r.2.mem ((c.tc : Thread nD τ).loc main_v4)
        = Cert.Arrays.kerArr (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v4 (by decide))).trans (W4_main_v4 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_vals m ρ)

end Cert.KernelIdeal.Hand

end
-- ==== Proof.RefValue.lean ====
/-
  What the reference program computes, as the specification's `refOut`.

  The reference is a chain of ten array operations: the base product `x·W` (a contraction over the 4096 input
  features), the bias `b` spread along batch and position and added to it, the product through the rank-16 bottleneck
  `(x·A)·B` (two contractions, over the 4096 input features and then over the 16 adapter ranks), the scale 2.0 spread
  over the whole result and multiplied in, and the final sum. Read at one index (batch `p`, position `s`, output feature
  `e`) each operation takes its operands at indices that depend only on `p`, `s`, `e` and the summation variable:
  the base product reads `x` at `(p, s, d)` and `W` at `(d, e)`; the spread bias reads `b` at `e`; the outer adapter
  product reads the inner one at `(p, s, r)` and `B` at `(r, e)`; the inner one reads `x` at `(p, s, d)` and `A` at
  `(d, r)`. With these index identities the chain's value at `(p, s, e)` is literally
  `(∑ d, x[p,s,d]·W[d,e] + b[e]) + (∑ r, (∑ d, x[p,s,d]·A[d,r])·B[r,e])·2`, with no law of arithmetic used: the two
  sides are the same expression.
-/
import proofs.«144563_j86371792322948_1_alg».proof.Proof.Gen.ReferenceIdeal.Run
import proofs.«144563_j86371792322948_1_alg».proof.Proof.Gen.ReferenceIdeal.Read
import proofs.«144563_j86371792322948_1_alg».proof.Proof.Spec

noncomputable section

namespace Cert.RefValue

open Idealize.ShloMosaic Idealize.ShloMosaic.TcCoe Idealize.SL.Sem Cert.ReferenceIdeal
open Idealize.ShloMosaic.ValueIdx

/-- the scale 2.0 as the programs spell it -/
abbrev two : EReal := Ideal.ofBits .f32 0x40000000#32

/-- the reference's result array, index by index -/
def refArr (x : Cert.Spec.SX.Idx → EReal) (W : Cert.Spec.SW.Idx → EReal) (b : Cert.Spec.Sb.Idx → EReal)
    (A : Cert.Spec.SA.Idx → EReal) (B : Cert.Spec.SB.Idx → EReal) : Cert.Spec.SX.Idx → EReal :=
  fun i => Cert.Spec.refOut x W b A B two (i 0) (i 1) (i 2)

/-! ## Where each operation reads its operands -/

/-- The base product at `(p, s, e)` reads the activation's row `(p, s, ·)`. -/
theorem base_lhs (p : Fin 4) (s e d : Fin 4096) : Read.lidx_main_v0 (ix3 p s e) d = ix3 p s d :=
  funext fun a => by match a with | ⟨0, _⟩ => rfl | ⟨1, _⟩ => rfl | ⟨2, _⟩ => rfl

/-- The base product at `(p, s, e)` reads the weight's column `(·, e)`. -/
theorem base_rhs (p : Fin 4) (s e d : Fin 4096) : Read.ridx_main_v0 (ix3 p s e) d = ix2 d e :=
  funext fun a => by match a with | ⟨0, _⟩ => rfl | ⟨1, _⟩ => rfl

/-- The bias spread along batch and position is read, at `(p, s, e)`, at `e`. -/
theorem bias_idx (p : Fin 4) (s e : Fin 4096) : Read.idx_main_v1 (Read.idx_main_v2 (ix3 p s e)) = ix1 e :=
  funext fun a => by match a with | ⟨0, _⟩ => rfl

/-- The outer adapter product at `(p, s, e)` reads the inner product's row `(p, s, ·)`. -/
theorem outer_lhs (p : Fin 4) (s e : Fin 4096) (r : Fin 16) : Read.lidx_main_v5 (ix3 p s e) r = ix3 p s r :=
  funext fun a => by match a with | ⟨0, _⟩ => rfl | ⟨1, _⟩ => rfl | ⟨2, _⟩ => rfl

/-- The outer adapter product at `(p, s, e)` reads the second factor's column `(·, e)`. -/
theorem outer_rhs (p : Fin 4) (s e : Fin 4096) (r : Fin 16) : Read.ridx_main_v5 (ix3 p s e) r = ix2 r e :=
  funext fun a => by match a with | ⟨0, _⟩ => rfl | ⟨1, _⟩ => rfl

/-- The inner adapter product at `(p, s, r)` reads the activation's row `(p, s, ·)`. -/
theorem inner_lhs (p : Fin 4) (s d : Fin 4096) (r : Fin 16) : Read.lidx_main_v4 (ix3 p s r) d = ix3 p s d :=
  funext fun a => by match a with | ⟨0, _⟩ => rfl | ⟨1, _⟩ => rfl | ⟨2, _⟩ => rfl

/-- The inner adapter product at `(p, s, r)` reads the first factor's column `(·, r)`. -/
theorem inner_rhs (p : Fin 4) (s d : Fin 4096) (r : Fin 16) : Read.ridx_main_v4 (ix3 p s r) d = ix2 d r :=
  funext fun a => by match a with | ⟨0, _⟩ => rfl | ⟨1, _⟩ => rfl

/-! ## The chain's value at an index -/

/-- The last operation's result at `(p, s, e)` is the specification's expression there. -/
theorem val_at (x : Cert.Spec.SX.Idx → EReal) (W : Cert.Spec.SW.Idx → EReal) (b : Cert.Spec.Sb.Idx → EReal)
    (A : Cert.Spec.SA.Idx → EReal) (B : Cert.Spec.SB.Idx → EReal) (p : Fin 4) (s e : Fin 4096) :
    Read.val_main_v8 (F := Ideal) x W b A B (ix3 p s e) = Cert.Spec.refOut x W b A B two p s e := by
  rw [Read.val_main_v8_apply, Read.val_main_v3_apply, Read.val_main_v0_apply, Read.val_main_v2_apply,
    Read.val_main_v1_apply, Read.val_main_v7_apply, Read.val_main_v5_apply, Read.val_main_v6_apply,
    Read.val_main_cst_apply]
  simp only [Read.val_main_v4_apply, base_lhs, base_rhs, bias_idx, outer_lhs, outer_rhs, inner_lhs, inner_rhs,
    Ideal.addf_def, Ideal.mulf_def, Ideal.ofBits_def]
  rfl

/-- The last operation's result is the specification's array. -/
theorem val_eq (x : Cert.Spec.SX.Idx → EReal) (W : Cert.Spec.SW.Idx → EReal) (b : Cert.Spec.Sb.Idx → EReal)
    (A : Cert.Spec.SA.Idx → EReal) (B : Cert.Spec.SB.Idx → EReal) :
    Read.val_main_v8 (F := Ideal) x W b A B = refArr x W b A B := by
  funext i
  obtain ⟨p, s, e, rfl⟩ : ∃ (p : Fin 4) (s : Fin 4096) (e : Fin 4096), i = ix3 p s e := ⟨i 0, i 1, i 2, eq_ix3 i⟩
  exact val_at x W b A B p s e

/-! ## The run -/

/-- Every weakly fair execution of the reference ends with its result array at the specification's array of the
    arguments, and the arguments unchanged. -/
theorem run [Cert.ReferenceIdeal.Facts] (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ (fun r => ∀ c : Dev nD,
      r.2.mem ((c.tc : Thread nD τ).loc main_v8) = refArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run _ _ _).mono
    (fun _ h c => ⟨(h c).1.trans ((Read.val_main_v8_eq (F := Ideal) _ _ _ _ _).trans (val_eq _ _ _ _ _)), (h c).2⟩)
    (Cert.ReferenceIdeal.Value.run (F := Ideal) m ρ)

end Cert.RefValue

end
-- ==== Proof.Finite.lean ====
/-
  From the precondition "every float input is finite" to "every entry of every argument array is a real number".

  The precondition is the conjunction, over the five argument arrays, of "all entries satisfy |x| < +∞".
  Over the extended reals |x| is max x (-x) and the pattern 0x7F800000 denotes ⊤, so an entry passing the
  comparison is neither ⊤ nor ⊥: it is the image of a real number. The scale constant, the pattern
  0x40000000, denotes the real 2.
-/
import proofs.«144563_j86371792322948_1_alg».proof.Defs
import Idealize.ShloMosaic.Lib.ReduceAll
import Idealize.ShloMosaic.Lib.ValueIdx

noncomputable section

namespace Cert.Finite

open Idealize.ShloMosaic Idealize.ShloMosaic.TcCoe Idealize.SL.Sem

/-- The pattern of +∞ denotes the top of the extended reals. -/
theorem ofBits_inf : (Ideal.ofBits .f32 0x7F800000#32 : EReal) = ⊤ := by
  simp [Ideal.ofBits, Ideal.ieee]

/-- the scale 2.0 is a real number -/
theorem two_real : ∃ t : ℝ, (Ideal.ofBits .f32 0x40000000#32 : EReal) = ((t : ℝ) : EReal) := by
  refine ⟨2, ?_⟩
  simp [Ideal.ofBits, Ideal.ieee, -EReal.coe_mul]; norm_num

/-- An extended real whose absolute value compares below +∞ is a real number: the two infinities have
    absolute value ⊤, which is not below ⊤. -/
theorem real_of_abs_lt_inf (x : EReal)
    (h : Ideal.cmp .olt (max x (-x)) (Ideal.ofBits .f32 0x7F800000#32) = 1#1) : ∃ r : ℝ, x = ((r : ℝ) : EReal) := by
  rw [ofBits_inf] at h
  induction x using EReal.rec with
  | bot => simp [Ideal.cmp] at h
  | coe r => exact ⟨r, rfl⟩
  | top => simp [Ideal.cmp] at h

/-- The rank-0 shape has one index. -/
instance : Subsingleton Cert.Pre_finite_inputs.S_.Idx := ⟨fun a b => funext fun d => d.elim0⟩

/-- One conjunct of the precondition, at any shape: if "all entries of |x| are below the broadcast +∞" reduces to 1,
    every entry of x is a real number. -/
theorem all_real {s : Shape} {axes : List (Fin s.rank)}
    (hb : Cert.Pre_finite_inputs.S_.BroadcastsInDim s (![] : Fin 0 → Fin s.rank))
    (hr : s.ReducesTo axes Cert.Pre_finite_inputs.S_) (hu : 0 < Cert.Pre_finite_inputs.S_.numel)
    (x : FVec Ideal s .f32) (init : IVec Cert.Pre_finite_inputs.S_ 1)
    (e : Host.reduce IntOp.andi
          (cmpf .olt (Host.absf x) (broadcastInDim s ![] hb (constant Cert.Pre_finite_inputs.S_ .f32 0x7F800000#32)))
          init hr hu ValueIdx.ix0 = 1#1) :
    ∀ i, ∃ r : ℝ, x i = ((r : ℝ) : EReal) := by
  intro i
  have hi := Host.reduce_andi_all _ init hr hu ValueIdx.ix0 e i
  exact real_of_abs_lt_inf (x i) hi

/-- The precondition over abstract arrays: all five are real entry by entry. -/
theorem fn_real [Cert.Pre_finite_inputs.Facts]
    (a0 : FVec Ideal Cert.Pre_finite_inputs.S4x4096x4096 .f32) (a1 : FVec Ideal Cert.Pre_finite_inputs.S4096x4096 .f32)
    (a2 : FVec Ideal Cert.Pre_finite_inputs.S4096 .f32) (a3 : FVec Ideal Cert.Pre_finite_inputs.S4096x16 .f32)
    (a4 : FVec Ideal Cert.Pre_finite_inputs.S16x4096 .f32)
    (h : Cert.Pre_finite_inputs.fn (F := Ideal) a0 a1 a2 a3 a4 = fun _ => 1#1) :
    (∀ i, ∃ r : ℝ, a0 i = ((r : ℝ) : EReal)) ∧ (∀ i, ∃ r : ℝ, a1 i = ((r : ℝ) : EReal))
      ∧ (∀ i, ∃ r : ℝ, a2 i = ((r : ℝ) : EReal)) ∧ (∀ i, ∃ r : ℝ, a3 i = ((r : ℝ) : EReal))
      ∧ (∀ i, ∃ r : ℝ, a4 i = ((r : ℝ) : EReal)) := by
  have h0 := congrFun h ValueIdx.ix0
  dsimp only [Cert.Pre_finite_inputs.fn, Cert.Pre_finite_inputs.fn_part1] at h0
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  exact ⟨all_real _ _ _ a0 _ e0, all_real _ _ _ a1 _ e1, all_real _ _ _ a2 _ e2, all_real _ _ _ a3 _ e3,
    all_real _ _ _ a4 _ e4⟩

/-- under the precondition every entry of every argument is a real number -/
theorem args_real [Cert.KernelIdeal.Facts] [Cert.Pre_finite_inputs.Facts]
    (m : (ℓ : Loc Cert.KernelIdeal.nD Cert.KernelIdeal.τ Cert.KernelIdeal.sig) → Buf (Elt Ideal) ℓ) (h : Cert.Pre_KernelIdeal m) (c : Dev Cert.KernelIdeal.nD) :
    (∀ i, ∃ r : ℝ, m ((c.tc : Thread Cert.KernelIdeal.nD Cert.KernelIdeal.τ).loc Cert.KernelIdeal.main_arg0) i = ((r : ℝ) : EReal))
    ∧ (∀ i, ∃ r : ℝ, m ((c.tc : Thread Cert.KernelIdeal.nD Cert.KernelIdeal.τ).loc Cert.KernelIdeal.main_arg1) i = ((r : ℝ) : EReal))
    ∧ (∀ i, ∃ r : ℝ, m ((c.tc : Thread Cert.KernelIdeal.nD Cert.KernelIdeal.τ).loc Cert.KernelIdeal.main_arg2) i = ((r : ℝ) : EReal))
    ∧ (∀ i, ∃ r : ℝ, m ((c.tc : Thread Cert.KernelIdeal.nD Cert.KernelIdeal.τ).loc Cert.KernelIdeal.main_arg3) i = ((r : ℝ) : EReal))
    ∧ (∀ i, ∃ r : ℝ, m ((c.tc : Thread Cert.KernelIdeal.nD Cert.KernelIdeal.τ).loc Cert.KernelIdeal.main_arg4) i = ((r : ℝ) : EReal)) :=
  fn_real _ _ _ _ _ (h c)

end Cert.Finite

end
-- ==== Proof.Algebra.lean ====
/-
  The algebraic law joining the two spellings of the low-rank-adapted linear layer, for real-valued arrays.

  With real entries every value below is the image of a real number in the extended reals, and the image map
  respects sums and products; so both results are images of real numbers and it is enough to compare those.

  In the reals:  the sum over the 4096 input features is the sum over the four chunks of the sums over each
  chunk's 1024 features (feature `1024·k + d` is feature `d` of chunk `k`);  the product with the merged
  weight distributes,  `x·(W + two·(A·B)) = x·W + two·(x·(A·B))`;  and the double sum over features and the
  rank-16 bottleneck may be taken in either order,  `x·(A·B) = (x·A)·B`.
-/
import proofs.«144563_j86371792322948_1_alg».proof.Proof.Spec
import Mathlib.Data.EReal.Basic
import Mathlib.Data.EReal.Operations
import Mathlib.Algebra.BigOperators.Fin
import Mathlib.Algebra.BigOperators.Ring.Finset
import Mathlib.Logic.Equiv.Fin.Basic
import Mathlib.Tactic.Ring

noncomputable section

namespace Cert.Spec

open Idealize.ShloMosaic Idealize.ShloMosaic.ValueIdx

/-- The image of a finite sum of reals is the sum of the images. -/
private theorem coe_sum_real {ι : Type*} (t : Finset ι) (f : ι → ℝ) :
    (∑ i ∈ t, ((f i : ℝ) : EReal)) = ((∑ i ∈ t, f i : ℝ) : EReal) := by
  classical
  refine Finset.induction_on t ?_ ?_
  · simp
  · intro a t ha ih
    rw [Finset.sum_insert ha, Finset.sum_insert ha, ih, EReal.coe_add]

/-- A sum over all 4096 features is the sum, over the four chunks, of the sums over each chunk. -/
private theorem sum_chunks (g : Fin 4096 → ℝ) :
    (∑ d : Fin 4096, g d) = ∑ k : Fin 4, ∑ d : Fin 1024, g (chunkIdx k d) := by
  rw [← Fintype.sum_prod_type' (f := fun k d => g (chunkIdx k d))]
  refine (Fintype.sum_equiv (finProdFinEquiv : Fin 4 × Fin 1024 ≃ Fin (4 * 1024)) _ _ ?_).symm
  rintro ⟨k, d⟩
  congr 1
  apply Fin.ext
  simp [chunkIdx, finProdFinEquiv]
  omega

/-- The law in the reals, for one row `xr` of the activation, one column `Wr` of the weight, the rows `Ar` of
the first factor and one column `Br` of the second. -/
private theorem real_law (xr Wr : Fin 4096 → ℝ) (Ar : Fin 4096 → Fin 16 → ℝ) (Br : Fin 16 → ℝ) (bv two : ℝ) :
    ((((0 + ∑ d : Fin 1024, xr (chunkIdx 0 d) * (Wr (chunkIdx 0 d) + two * ∑ r : Fin 16, Ar (chunkIdx 0 d) r * Br r))
        + ∑ d : Fin 1024, xr (chunkIdx 1 d) * (Wr (chunkIdx 1 d) + two * ∑ r : Fin 16, Ar (chunkIdx 1 d) r * Br r))
        + ∑ d : Fin 1024, xr (chunkIdx 2 d) * (Wr (chunkIdx 2 d) + two * ∑ r : Fin 16, Ar (chunkIdx 2 d) r * Br r))
        + ∑ d : Fin 1024, xr (chunkIdx 3 d) * (Wr (chunkIdx 3 d) + two * ∑ r : Fin 16, Ar (chunkIdx 3 d) r * Br r))
        + bv
      = ((∑ d : Fin 4096, xr d * Wr d) + bv)
          + (∑ r : Fin 16, (∑ d : Fin 4096, xr d * Ar d r) * Br r) * two := by
  -- the four partial sums together are the sum over all features
  have h4 := sum_chunks (fun d => xr d * (Wr d + two * ∑ r : Fin 16, Ar d r * Br r))
  rw [Fin.sum_univ_four] at h4
  -- distribute the product with the merged weight
  have hd : (∑ d : Fin 4096, xr d * (Wr d + two * ∑ r : Fin 16, Ar d r * Br r))
      = (∑ d : Fin 4096, xr d * Wr d) + two * ∑ d : Fin 4096, ∑ r : Fin 16, xr d * Ar d r * Br r := by
    rw [Finset.mul_sum, ← Finset.sum_add_distrib]
    refine Finset.sum_congr rfl (fun d _ => ?_)
    have hr : (∑ r : Fin 16, xr d * Ar d r * Br r) = xr d * ∑ r : Fin 16, Ar d r * Br r := by
      rw [Finset.mul_sum]
      exact Finset.sum_congr rfl (fun r _ => by ring)
    rw [hr]
    ring
  -- take the double sum in the other order
  have hc : (∑ d : Fin 4096, ∑ r : Fin 16, xr d * Ar d r * Br r)
      = ∑ r : Fin 16, (∑ d : Fin 4096, xr d * Ar d r) * Br r := by
    rw [Finset.sum_comm]
    refine Finset.sum_congr rfl (fun r _ => ?_)
    rw [Finset.sum_mul]
  rw [← hc]
  linarith [h4, hd]

theorem kerOut_eq_refOut (x : SX.Idx → ℝ) (W : SW.Idx → ℝ) (b : Sb.Idx → ℝ) (A : SA.Idx → ℝ) (B : SB.Idx → ℝ) (two : ℝ)
    (p : Fin 4) (s : Fin 4096) (e : Fin 4096) :
    kerOut (fun i => ((x i : ℝ) : EReal)) (fun i => ((W i : ℝ) : EReal)) (fun i => ((b i : ℝ) : EReal)) (fun i => ((A i : ℝ) : EReal)) (fun i => ((B i : ℝ) : EReal)) ((two : ℝ) : EReal) p s e
      = refOut (fun i => ((x i : ℝ) : EReal)) (fun i => ((W i : ℝ) : EReal)) (fun i => ((b i : ℝ) : EReal)) (fun i => ((A i : ℝ) : EReal)) (fun i => ((B i : ℝ) : EReal)) ((two : ℝ) : EReal) p s e := by
  have h := real_law (fun d => x (ix3 p s d)) (fun d => W (ix2 d e)) (fun d r => A (ix2 d r)) (fun r => B (ix2 r e))
    (b (ix1 e)) two
  simp only [kerOut, partialDot, weff, refOut]
  simp only [← EReal.coe_mul, ← EReal.coe_add, coe_sum_real, ← EReal.coe_zero]
  exact congrArg (fun t : ℝ => (t : EReal)) h

end Cert.Spec

end
-- ==== Proof.Bridge.lean ====
/-
  The algebraic law at the arrays the programs hold: where every entry of the five arguments and the scale are
  real numbers, the kernel's accumulation through the merged weight equals the reference's base product plus its
  scaled low-rank product, entry by entry. (On the extended reals the law needs this: distributing a product over a
  sum, and moving a factor through a sum, fail at infinities.)
-/
import proofs.«144563_j86371792322948_1_alg».proof.Proof.Algebra

noncomputable section

namespace Cert.Spec

/-- `kerOut = refOut` at extended-real arrays all of whose entries are real, with a real scale. -/
theorem kerOut_eq_refOut_of_real (x : SX.Idx → EReal) (W : SW.Idx → EReal) (b : Sb.Idx → EReal) (A : SA.Idx → EReal) (B : SB.Idx → EReal)
    (tw : EReal)
    (hx : ∀ i, ∃ r : ℝ, x i = ((r : ℝ) : EReal)) (hW : ∀ i, ∃ r : ℝ, W i = ((r : ℝ) : EReal)) (hb : ∀ i, ∃ r : ℝ, b i = ((r : ℝ) : EReal))
    (hA : ∀ i, ∃ r : ℝ, A i = ((r : ℝ) : EReal)) (hB : ∀ i, ∃ r : ℝ, B i = ((r : ℝ) : EReal)) (htw : ∃ t : ℝ, tw = ((t : ℝ) : EReal))
    (p : Fin 4) (s : Fin 4096) (e : Fin 4096) :
    kerOut x W b A B tw p s e = refOut x W b A B tw p s e := by
  choose x' hx' using hx
  choose W' hW' using hW
  choose b' hb' using hb
  choose A' hA' using hA
  choose B' hB' using hB
  obtain ⟨t, rfl⟩ := htw
  obtain rfl : x = fun i => ((x' i : ℝ) : EReal) := funext hx'
  obtain rfl : W = fun i => ((W' i : ℝ) : EReal) := funext hW'
  obtain rfl : b = fun i => ((b' i : ℝ) : EReal) := funext hb'
  obtain rfl : A = fun i => ((A' i : ℝ) : EReal) := funext hA'
  obtain rfl : B = fun i => ((B' i : ℝ) : EReal) := funext hB'
  exact kerOut_eq_refOut x' W' b' A' B' t p s e

end Cert.Spec

end
-- ==== Proof.lean ====
/-
  The certificate of a linear layer with a rank-16 adapter: `out = x·W + b + 2·((x·A)·B)`.

  The kernel first forms the merged weight `Weff = W + 2·(A·B)` tile by tile (one launch), then accumulates
  `x·Weff` over four chunks of 1024 input features in a scratch accumulator and adds the bias at the last chunk (a
  second launch); the reference computes the base product and the low-rank product separately. Over the extended
  reals the two agree wherever every input entry is a real number: the law is distributivity of the product over
  the sum and the exchange of the two sums, which need finiteness, and that is what the precondition gives.

  * The three frames: the word-level program and the idealized program run to the end and leave their arguments as
    launched (the run of the two launches and the reshapes between them, proved once for any float instance); the
    reference's frame is its run with the result dropped.
  * `preserves` is trivial: the idealization rewrote nothing.
  * `algebraic`: the idealized kernel's run ends with the result at the kernel's closed form of the arguments, the
    reference's at its own closed form, and the two closed forms are equal entry by entry under the precondition.
-/
import proofs.«144563_j86371792322948_1_alg».proof.Defs
import proofs.«144563_j86371792322948_1_alg».proof.Proof.Gen.Kernel
import proofs.«144563_j86371792322948_1_alg».proof.Proof.Gen.Kernel.Skeleton
import proofs.«144563_j86371792322948_1_alg».proof.Proof.Gen.Kernel.Launch
import proofs.«144563_j86371792322948_1_alg».proof.Proof.Gen.Kernel.Regions
import proofs.«144563_j86371792322948_1_alg».proof.Proof.Gen.Kernel.Points
import proofs.«144563_j86371792322948_1_alg».proof.Proof.Gen.KernelIdeal
import proofs.«144563_j86371792322948_1_alg».proof.Proof.Gen.KernelIdeal.Skeleton
import proofs.«144563_j86371792322948_1_alg».proof.Proof.Gen.KernelIdeal.Launch
import proofs.«144563_j86371792322948_1_alg».proof.Proof.Gen.KernelIdeal.Regions
import proofs.«144563_j86371792322948_1_alg».proof.Proof.Gen.KernelIdeal.Points
import proofs.«144563_j86371792322948_1_alg».proof.Proof.Gen.ReferenceIdeal
import proofs.«144563_j86371792322948_1_alg».proof.Proof.Gen.ReferenceIdeal.Run
import proofs.«144563_j86371792322948_1_alg».proof.Proof.Gen.ReferenceIdeal.Read
import proofs.«144563_j86371792322948_1_alg».proof.Proof.Gen.Pre_finite_inputs
import proofs.«144563_j86371792322948_1_alg».proof.Proof.K.Run
import proofs.«144563_j86371792322948_1_alg».proof.Proof.KI.Value
import proofs.«144563_j86371792322948_1_alg».proof.Proof.RefValue
import proofs.«144563_j86371792322948_1_alg».proof.Proof.Finite
import proofs.«144563_j86371792322948_1_alg».proof.Proof.Bridge
import Idealize.ShloMosaic.Adequacy
import Idealize.ShloMosaic.Init

noncomputable section

namespace Cert.Proof

open Idealize.ShloMosaic Idealize.SL.Sem

/-- The word-level program runs and leaves its arguments as launched. -/
theorem frame_k : Cert.frame_Kernel := fun m ρ _ => Cert.Kernel.Hand.frame (F := Bits) m ρ

/-- So does the idealized program. -/
theorem frame_ki : Cert.frame_KernelIdeal := fun m ρ _ => Cert.KernelIdeal.Hand.frame (F := Ideal) m ρ

/-- The reference's frame is its run with the result dropped. -/
theorem frame_ri : Cert.frame_ReferenceIdeal := fun m ρ _ =>
  (θ_run Cert.ReferenceIdeal.defs _ _).mono (fun _ h c => (h c).2) (Cert.RefValue.run m ρ)

/-- Both idealized programs end with the same result: the kernel's closed form of the arguments is the reference's,
    entry by entry, because under the precondition every entry (and the scale) is a real number. -/
theorem algebraic : Cert.algebraic_KernelIdeal_ReferenceIdeal := by
  intro m ρ m' ρ' hpre hagree
  refine ⟨fun c => Cert.Arrays.kerArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Hand.run_value m ρ, ?_⟩
  refine (θ_run Cert.ReferenceIdeal.defs _ _).mono (fun _ h c => ⟨(h c).1.trans ?_, (h c).2⟩) (Cert.RefValue.run m' ρ')
  rw [(hagree c).1, (hagree c).2.1, (hagree c).2.2.1, (hagree c).2.2.2.1, (hagree c).2.2.2.2]
  obtain ⟨h0, h1, h2, h3, h4⟩ := Cert.Finite.args_real m hpre c
  funext i
  exact (Cert.Spec.kerOut_eq_refOut_of_real _ _ _ _ _ _ h0 h1 h2 h3 h4 Cert.Finite.two_real (i 0) (i 1) (i 2)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
